-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S100000x256 : Shape := ⟨2, ![100000, 256]⟩
abbrev S256x256 : Shape := ⟨2, ![256, 256]⟩
abbrev S256 : Shape := ⟨1, ![256]⟩
abbrev S2x256x256 : Shape := ⟨3, ![2, 256, 256]⟩
abbrev S2x1x256 : Shape := ⟨3, ![2, 1, 256]⟩
abbrev S2000x256 : Shape := ⟨2, ![2000, 256]⟩
abbrev S1x256x256 : Shape := ⟨3, ![1, 256, 256]⟩
abbrev S1x1x256 : Shape := ⟨3, ![1, 1, 256]⟩
abbrev S1x256 : Shape := ⟨2, ![1, 256]⟩
abbrev S_ : Shape := ⟨0, ![]⟩
abbrev S4000x256 : Shape := ⟨2, ![4000, 256]⟩
abbrev S4000 : Shape := ⟨1, ![4000]⟩
abbrev S4000x1 : Shape := ⟨2, ![4000, 1]⟩

abbrev nBuf : Space → Nat
  | .hbm => 14
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2x256x256, .f32⟩
  | .hbm, ⟨8, _⟩ => ⟨S2x1x256, .f32⟩
  | .hbm, ⟨9, _⟩ => ⟨S_, .f32⟩
  | .hbm, ⟨10, _⟩ => ⟨S256x256, .f32⟩
  | .hbm, ⟨11, _⟩ => ⟨S_, .f32⟩
  | .hbm, ⟨12, _⟩ => ⟨S1x256, .f32⟩
  | .hbm, ⟨13, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1x256x256, .f32⟩
  | .local _ .vmem, ⟨7, _⟩ => ⟨S1x256x256, .f32⟩
  | .local _ .vmem, ⟨8, _⟩ => ⟨S1x1x256, .f32⟩
  | .local _ .vmem, ⟨9, _⟩ => ⟨S1x1x256, .f32⟩
  | .local _ .vmem, ⟨10, _⟩ => ⟨S4000x256, .f32⟩
  | .local _ .vmem, ⟨11, _⟩ => ⟨S4000x256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S1x256, .f32⟩
  | .local _ .vmem, ⟨16, _⟩ => ⟨S4000x256, .f32⟩
  | .local _ .vmem, ⟨17, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  reduces_S2000x256_S256 : S2000x256.Reduces [0] S256
  reducesTo_S2x256x256_S256x256_d0 : S2x256x256.ReducesTo [0] S256x256
  h_S_ : 0 < S_.numel
  reducesTo_S2x1x256_S1x256_d0 : S2x1x256.ReducesTo [0] S1x256
  inb_S4000x256_S4000x256_0_0 : ∀ a, (![0, 0] : Fin 2 → Nat) a + S4000x256.size a ≤ S4000x256.size a
  h_S4000x256 : 0 < S4000x256.numel
  broadcasts_S1x256_S4000x256 : S1x256.Broadcasts S4000x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4000x256_S4000 : S4000x256.Reduces [1] S4000
  shapeCasts_S4000_S4000x1 : S4000.ShapeCasts S4000x1
  broadcasts_S4000x1_S4000x256 : S4000x1.Broadcasts S4000x256
  dot_S2000x256_S256x256_S2000x256_1_0_0_1_n_n_wf : DotDims.WF S2000x256 S256x256 S2000x256 [1] [0] [0] [1] [] []
  dot_S2000x256_S2000x256_S256x256_0_0_1_1_n_n_wf : DotDims.WF S2000x256 S2000x256 S256x256 [0] [0] [1] [1] [] []
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S2x256x256.size a
  hwx0_5 : ∀ i : grid0.Coords, EltTy.bits .f32 = 32 ∨ (Rect.block (s := S2x256x256) S1x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S2x1x256.size a
  hwx0_6 : ∀ i : grid0.Coords, EltTy.bits .f32 = 32 ∨ (Rect.block (s := S2x1x256) S1x1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S100000x256.size a
  hwx1_5 : ∀ i : grid1.Coords, EltTy.bits .f32 = 32 ∨ (Rect.block (s := S100000x256) S4000x256.size (cc1_transform_5 i) (hinb1_5 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S2000x256_S256x256_0_0_1_1_n_n : DotDims S2000x256 S2000x256 S256x256 where
  lhsContracting := [0]
  rhsContracting := [0]
  lhsNonContracting := [1]
  rhsNonContracting := [1]
  lhsBatch := []
  rhsBatch := []
  wf := dot_S2000x256_S2000x256_S256x256_0_0_1_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S256x1 : Shape := ⟨2, ![256, 1]⟩
abbrev S100000x1 : Shape := ⟨2, ![100000, 1]⟩

abbrev nBuf : Space → Nat
  | .hbm => 36
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S100000x256, .f32⟩
  | .hbm, ⟨8, _⟩ => ⟨S1x256, .f32⟩
  | .hbm, ⟨9, _⟩ => ⟨S100000x256, .f32⟩
  | .hbm, ⟨10, _⟩ => ⟨S100000x256, .f32⟩
  | .hbm, ⟨11, _⟩ => ⟨S_, .f32⟩
  | .hbm, ⟨12, _⟩ => ⟨S100000x256, .f32⟩
  | .hbm, ⟨13, _⟩ => ⟨S100000x256, .f32⟩
  | .hbm, ⟨14, _⟩ => ⟨S100000x256, .f32⟩
  | .hbm, ⟨15, _⟩ => ⟨S1x256, .f32⟩
  | .hbm, ⟨16, _⟩ => ⟨S100000x256, .f32⟩
  | .hbm, ⟨17, _⟩ => ⟨S100000x256, .f32⟩
  | .hbm, ⟨18, _⟩ => ⟨S_, .f32⟩
  | .hbm, ⟨19, _⟩ => ⟨S100000x256, .f32⟩
  | .hbm, ⟨20, _⟩ => ⟨S100000x256, .f32⟩
  | .hbm, ⟨21, _⟩ => ⟨S100000x256, .f32⟩
  | .hbm, ⟨22, _⟩ => ⟨S1x256, .f32⟩
  | .hbm, ⟨23, _⟩ => ⟨S100000x256, .f32⟩
  | .hbm, ⟨24, _⟩ => ⟨S100000x256, .f32⟩
  | .hbm, ⟨25, _⟩ => ⟨S256x256, .f32⟩
  | .hbm, ⟨26, _⟩ => ⟨S100000x256, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x256, .f32⟩
  | .hbm, ⟨35, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  reducesTo_S100000x256_S256_d0 : S100000x256.ReducesTo [0] S256
  h_S_ : 0 < S_.numel
  bcast_S256_S256x1_0 : S256.BroadcastsInDim S256x1 (![0] : Fin 1 → Fin S256x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  dot_S100000x256_S256x256_S100000x256_1_0_0_1_n_n_wf : DotDims.WF S100000x256 S256x256 S100000x256 [1] [0] [0] [1] [] []
  dot_S100000x256_S100000x256_S256x256_0_0_1_1_n_n_wf : DotDims.WF S100000x256 S100000x256 S256x256 [0] [0] [1] [1] [] []
  dot_S100000x256_S256x1_S100000x1_1_0_0_1_n_n_wf : DotDims.WF S100000x256 S256x1 S100000x1 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S100000x256_S256x256_0_0_1_1_n_n : DotDims S100000x256 S100000x256 S256x256 where
  lhsContracting := [0]
  rhsContracting := [0]
  lhsNonContracting := [1]
  rhsNonContracting := [1]
  lhsBatch := []
  rhsBatch := []
  wf := dot_S100000x256_S100000x256_S256x256_0_0_1_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.Spec.lean ====
/-
  The mathematics both programs compute, stated once over the extended reals and over the argument arrays'
  literal shapes: ReLU-kernelised linear attention.

  For a row n of x and a feature d, lin W b n d = (sum over k of x[n,k] * W[k,d]) + b[d] and
  feat W b n d = max (lin W b n d) 0.  With Q = feat Wq bq, K = feat Wk bk and V = lin Wv bv the result at (n, e) is

      (sum_d Q[n,d] * KV[d,e]) / ((sum_d Q[n,d] * KS[d]) + eps),   KV[d,e] = sum_m K[m,d] * V[m,e],   KS[d] = sum_m K[m,d].

  Rows are named by natural numbers (an array read outside its rows is zero; no sum below reaches there), so that a
  run of rows is an interval and the row sums over blocks, over halves and over the whole array are interval sums.
  The zero word and the epsilon word are kept as the words both programs print.
-/
import Idealize.ShloMosaic.PureOps.Ideal
import Idealize.ShloMosaic.PureOps.Ideal.Laws
import Idealize.ShloMosaic.Lib.ValueIdx

noncomputable section

open scoped BigOperators

namespace ReluAttn

open Idealize.ShloMosaic Idealize.ShloMosaic.ValueIdx

/-- The shapes of the arguments: the rows x, a weight matrix, a bias vector. -/
abbrev SN : Shape := ⟨2, ![100000, 256]⟩
abbrev SW : Shape := ⟨2, ![256, 256]⟩
abbrev SB : Shape := ⟨1, ![256]⟩
/-- The per-half partial sums the kernel's first pass leaves, and the row vector its second pass reads. -/
abbrev SKV2 : Shape := ⟨3, ![2, 256, 256]⟩
abbrev SKS2 : Shape := ⟨3, ![2, 1, 256]⟩
abbrev SKS : Shape := ⟨2, ![1, 256]⟩

/-- The word of +0.0 and the word of the epsilon 1e-6 (as f32), read at the extended reals. -/
abbrev z0 : EReal := Ideal.ofBits .f32 0x00000000#32
abbrev eps : EReal := Ideal.ofBits .f32 0x358637BD#32

/-- Row n of x at column k; zero past the last row. -/
def xrow (x : SN.Idx → EReal) (n : ℕ) (k : Fin 256) : EReal :=
  if h : n < 100000 then x (ix2 ⟨n, h⟩ k) else 0

theorem xrow_of_lt (x : SN.Idx → EReal) (n : ℕ) (h : n < 100000) (k : Fin 256) : xrow x n k = x (ix2 ⟨n, h⟩ k) :=
  dif_pos h

/-- An entry of x is its row's entry. -/
theorem xrow_idx (x : SN.Idx → EReal) (n : Fin 100000) (k : Fin 256) : xrow x n.val k = x (ix2 n k) :=
  xrow_of_lt x n.val n.isLt k

/-- The affine map: row n of x times column d of W, plus the bias. -/
def lin (x : SN.Idx → EReal) (W : SW.Idx → EReal) (b : SB.Idx → EReal) (n : ℕ) (d : Fin 256) : EReal :=
  (∑ k : Fin 256, xrow x n k * W (ix2 k d)) + b (ix1 d)

/-- The feature map: the affine map clipped below at zero. -/
def feat (x : SN.Idx → EReal) (W : SW.Idx → EReal) (b : SB.Idx → EReal) (n : ℕ) (d : Fin 256) : EReal :=
  max (lin x W b n d) z0

/-- One row's contribution to KV[d,e]. -/
def kvTerm (x : SN.Idx → EReal) (Wk : SW.Idx → EReal) (bk : SB.Idx → EReal) (Wv : SW.Idx → EReal) (bv : SB.Idx → EReal)
    (d e : Fin 256) (n : ℕ) : EReal :=
  feat x Wk bk n d * lin x Wv bv n e

/-- What the kernel's first pass leaves for half c: the zero it starts from plus, block by block (25 blocks of
    2000 rows), the block's sum of the rows' contributions. -/
def kvPart (x : SN.Idx → EReal) (Wk : SW.Idx → EReal) (bk : SB.Idx → EReal) (Wv : SW.Idx → EReal) (bv : SB.Idx → EReal)
    (c : ℕ) (d e : Fin 256) : EReal :=
  z0 + ∑ s ∈ Finset.range 25, ∑ r : Fin 2000, kvTerm x Wk bk Wv bv d e (2000 * (25 * c + s) + r.val)

/-- Likewise the column sums of K for half c. -/
def ksPart (x : SN.Idx → EReal) (Wk : SW.Idx → EReal) (bk : SB.Idx → EReal) (c : ℕ) (d : Fin 256) : EReal :=
  z0 + ∑ s ∈ Finset.range 25, ∑ r : Fin 2000, feat x Wk bk (2000 * (25 * c + s) + r.val) d

/-- One block of 2000 rows, as the first pass sees it, and its affine map, feature map and two sums: what one grid
    point adds to KV[d,e] and to KS[d]. -/
abbrev SXB : Shape := ⟨2, ![2000, 256]⟩
def blkLin (xb : SXB.Idx → EReal) (W : SW.Idx → EReal) (b : SB.Idx → EReal) (r : Fin 2000) (d : Fin 256) : EReal :=
  (∑ k : Fin 256, xb (ix2 r k) * W (ix2 k d)) + b (ix1 d)
def blkFeat (xb : SXB.Idx → EReal) (W : SW.Idx → EReal) (b : SB.Idx → EReal) (r : Fin 2000) (d : Fin 256) : EReal :=
  max (blkLin xb W b r d) z0
def blkKV (xb : SXB.Idx → EReal) (Wk : SW.Idx → EReal) (bk : SB.Idx → EReal) (Wv : SW.Idx → EReal) (bv : SB.Idx → EReal)
    (d e : Fin 256) : EReal :=
  ∑ r : Fin 2000, blkFeat xb Wk bk r d * blkLin xb Wv bv r e
def blkKS (xb : SXB.Idx → EReal) (Wk : SW.Idx → EReal) (bk : SB.Idx → EReal) (d : Fin 256) : EReal :=
  ∑ r : Fin 2000, blkFeat xb Wk bk r d

/-- The kernel's second pass at row n, column e, from ANY matrix KV and row vector KS it is handed. -/
def out1 (x : SN.Idx → EReal) (Wq : SW.Idx → EReal) (bq : SB.Idx → EReal) (KV : SW.Idx → EReal) (KS : SKS.Idx → EReal)
    (n : ℕ) (e : Fin 256) : EReal :=
  Ideal.div (∑ d : Fin 256, feat x Wq bq n d * KV (ix2 d e))
    ((∑ d : Fin 256, feat x Wq bq n d * KS (ix2 (0 : Fin 1) d)) + eps)

/-- The reference at row n, column e: the whole-array sums (the column sum as the host's reduction leaves it, from
    its zero). -/
def refOut (x : SN.Idx → EReal) (Wq : SW.Idx → EReal) (bq : SB.Idx → EReal) (Wk : SW.Idx → EReal) (bk : SB.Idx → EReal)
    (Wv : SW.Idx → EReal) (bv : SB.Idx → EReal) (n : ℕ) (e : Fin 256) : EReal :=
  Ideal.div (∑ d : Fin 256, feat x Wq bq n d * ∑ m : Fin 100000, kvTerm x Wk bk Wv bv d e m.val)
    ((∑ d : Fin 256, feat x Wq bq n d * (z0 + ∑ m : Fin 100000, feat x Wk bk m.val d)) + eps)

end ReluAttn

end
-- ==== Proof.Algebra.lean ====
/-
  The one law that joins the two programs: a sum over all 100000 rows, taken in two halves of 25 blocks of 2000
  rows each (every partial sum started from zero), is the sum over the rows. Over the extended reals addition is
  commutative and associative with zero as its unit, and nothing else is used: no finiteness is needed.

  Rows are natural numbers, so a block, a half and the whole array are intervals: the sum over block o + s of width b
  is the sum over [b (o + s), b (o + s + 1)), consecutive intervals concatenate, and [0, 100000) is the whole index set.
-/
import proofs.«400756_j25658134626478_3_alg».proof.Proof.Spec
import Mathlib.Algebra.BigOperators.Intervals
import Mathlib.Algebra.BigOperators.Fin

noncomputable section

open scoped BigOperators

namespace ReluAttn

open Finset Idealize.ShloMosaic Idealize.ShloMosaic.ValueIdx

/-- The sum over one block of width b starting at row X is the sum over the interval [X, X + b). -/
theorem sum_block {M : Type*} [AddCommMonoid M] (f : ℕ → M) (b X : ℕ) :
    ∑ r : Fin b, f (X + r.val) = ∑ n ∈ Ico X (X + b), f n := by
  rw [Finset.sum_Ico_eq_sum_range, Nat.add_sub_cancel_left, Fin.sum_univ_eq_sum_range (fun i => f (X + i)) b]

/-- a consecutive blocks of width b, from block o on, make up the interval [b o, b (o + a)). -/
theorem sum_blocks {M : Type*} [AddCommMonoid M] (f : ℕ → M) (b o : ℕ) : ∀ a : ℕ,
    ∑ s ∈ range a, ∑ r : Fin b, f (b * (o + s) + r.val) = ∑ n ∈ Ico (b * o) (b * (o + a)), f n
  | 0 => by simp
  | a + 1 => by
    have e : b * (o + (a + 1)) = b * (o + a) + b := by ring
    rw [Finset.sum_range_succ, sum_blocks f b o a, sum_block f b (b * (o + a)), e,
      Finset.sum_Ico_consecutive f (Nat.mul_le_mul_left b (Nat.le_add_right o a)) (Nat.le_add_right _ b)]

theorem z0_eq : z0 = 0 := Ideal.ofBits_zero_f32

/-- Two halves of 25 blocks of 2000 rows, each partial sum and the total started from the zero word: the sum over
    the 100000 rows. -/
theorem halves_sum (f : ℕ → EReal) :
    z0 + ∑ h : Fin 2, (z0 + ∑ s ∈ range 25, ∑ r : Fin 2000, f (2000 * (25 * h.val + s) + r.val))
      = ∑ m : Fin 100000, f m.val := by
  rw [z0_eq, Fin.sum_univ_two]
  simp only [zero_add, Fin.val_zero, Fin.val_one]
  rw [sum_blocks f 2000 (25 * 0) 25, sum_blocks f 2000 (25 * 1) 25]
  norm_num
  rw [Finset.range_eq_Ico, Finset.sum_Ico_consecutive f (by norm_num) (by norm_num), ← Finset.range_eq_Ico,
    Finset.sum_range]

/-- The kernel's second pass, handed the host's sums of the first pass's two partial results, computes the
    reference's value. -/
theorem out1_eq_refOut (x : SN.Idx → EReal) (Wq : SW.Idx → EReal) (bq : SB.Idx → EReal) (Wk : SW.Idx → EReal)
    (bk : SB.Idx → EReal) (Wv : SW.Idx → EReal) (bv : SB.Idx → EReal) (KV : SW.Idx → EReal) (KS : SKS.Idx → EReal)
    (hKV : ∀ d e : Fin 256, KV (ix2 d e) = z0 + ∑ h : Fin 2, kvPart x Wk bk Wv bv h.val d e)
    (hKS : ∀ d : Fin 256, KS (ix2 (0 : Fin 1) d) = z0 + ∑ h : Fin 2, ksPart x Wk bk h.val d)
    (n : ℕ) (e : Fin 256) :
    out1 x Wq bq KV KS n e = refOut x Wq bq Wk bk Wv bv n e := by
  have h1 : ∀ d : Fin 256, KV (ix2 d e) = ∑ m : Fin 100000, kvTerm x Wk bk Wv bv d e m.val := fun d => by
    rw [hKV]; unfold kvPart; exact halves_sum (kvTerm x Wk bk Wv bv d e)
  have h2 : ∀ d : Fin 256, KS (ix2 (0 : Fin 1) d) = z0 + ∑ m : Fin 100000, feat x Wk bk m.val d := fun d => by
    rw [hKS]; unfold ksPart
    rw [halves_sum (fun m => feat x Wk bk m d), z0_eq, zero_add]
  unfold out1 refOut
  simp only [h1, h2]

end ReluAttn

end
-- ==== Proof.Pass1Pieces.lean ====
import proofs.«400756_j25658134626478_3_alg».proof.Proof.Gen.KernelIdeal.Frame
import proofs.«400756_j25658134626478_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass1

open Cert.KernelIdeal Cert.KernelIdeal.Gen

/-! # What one grid point of the first pass leaves in its two outputs

The first pass walks the rows of x block by block (2000 rows a block) and keeps two running sums per half: for
output 5 the matrix of sums over the rows of feature times value, for output 6 the row of column sums of the
features. The first point of a half starts both from the zero word; every other point adds to what the point before
left. Here each case's contents are read at an index over the extended reals: the accumulator there plus the block's
own sum.

Order: each case's covering store is a payload of the whole blocks; the layout operations, the three products and the
column sum at an index; the payloads at an index; the four statements. -/

section Pieces

variable {F : FTy → Type} [FloatOps F]

/-- The zero offsets of a whole-block rectangle, rank by rank. -/
private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-! ## Each found piece is a payload of the blocks

In the case that adds to what the point before left, each output's one covering store holds the payload of the whole
blocks read; in the case that starts a half, the later of the two stores covers, and what it read back is the zero
block the earlier store left. -/

private theorem piece_B_5 (c : Dev nD) (i : grid0.Coords) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S1x1x256 .f32) (harg8 : arg8.IsWhole) (hc0 : ¬cond0_0 i)
    (x0 : Vec F S2000x256 .f32) (x1 : Vec F S256x256 .f32) (x2 : Vec F S256 .f32) (x3 : Vec F S256x256 .f32) (x4 : Vec F S256 .f32) (xo5 : Vec F S1x256x256 .f32) (xo6 : Vec F S1x1x256 .f32) :
    out0_B_5 c i arg2 harg2 arg3 harg3 arg4 harg4 arg5 harg5 arg6 harg6 arg7 harg7 arg8 harg8 hc0 x0 x1 x2 x3 x4 xo5 xo6 = k0_pay6 x0 x1 x3 x2 x4 xo5 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S2000x256) hz2, View.ld_unit_zero (S := S256x256) hz2, View.ld_unit_zero (S := S256) hz1, View.ld_unit_zero (S := S1x256x256) hz3, View.ld_unit_zero (S := S1x1x256) hz3]

private theorem piece_B_6 (c : Dev nD) (i : grid0.Coords) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S1x1x256 .f32) (harg8 : arg8.IsWhole) (hc0 : ¬cond0_0 i)
    (x0 : Vec F S2000x256 .f32) (x1 : Vec F S256x256 .f32) (x2 : Vec F S256 .f32) (x3 : Vec F S256x256 .f32) (x4 : Vec F S256 .f32) (xo5 : Vec F S1x256x256 .f32) (xo6 : Vec F S1x1x256 .f32) :
    out0_B_6 c i arg2 harg2 arg3 harg3 arg4 harg4 arg5 harg5 arg6 harg6 arg7 harg7 arg8 harg8 hc0 x0 x1 x2 x3 x4 xo5 xo6 = k0_pay1 (k0_pay5 x0 x1 x2) (k0_pay7 xo6) := by
  unfold out0_B_6
  rw [View.read_writes_eq_canon _ _ _ (cover0_B_6 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S2000x256) hz2, View.ld_unit_zero (S := S256x256) hz2, View.ld_unit_zero (S := S256) hz1, View.ld_unit_zero (S := S1x256x256) hz3, View.ld_unit_zero (S := S1x1x256) hz3]

private theorem piece_A_5 (c : Dev nD) (i : grid0.Coords) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S1x1x256 .f32) (harg8 : arg8.IsWhole) (hc0 : cond0_0 i)
    (x0 : Vec F S2000x256 .f32) (x1 : Vec F S256x256 .f32) (x2 : Vec F S256 .f32) (x3 : Vec F S256x256 .f32) (x4 : Vec F S256 .f32) :
    out0_A_5 c i arg2 harg2 arg3 harg3 arg4 harg4 arg5 harg5 arg6 harg6 arg7 harg7 arg8 harg8 hc0 x0 x1 x2 x3 x4 = k0_pay6 x0 x1 x3 x2 x4 k0_pay2 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, harg4.read_unread, harg5.read_unread, harg6.read_unread, harg7.read_unread, harg8.read_unread,
    View.ld_unit_zero (S := S2000x256) hz2, View.ld_unit_zero (S := S256x256) hz2, View.ld_unit_zero (S := S256) hz1, View.ld_unit_zero (S := S1x256x256) hz3, View.ld_unit_zero (S := S1x1x256) hz3]

private theorem piece_A_6 (c : Dev nD) (i : grid0.Coords) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S1x1x256 .f32) (harg8 : arg8.IsWhole) (hc0 : cond0_0 i)
    (x0 : Vec F S2000x256 .f32) (x1 : Vec F S256x256 .f32) (x2 : Vec F S256 .f32) (x3 : Vec F S256x256 .f32) (x4 : Vec F S256 .f32) :
    out0_A_6 c i arg2 harg2 arg3 harg3 arg4 harg4 arg5 harg5 arg6 harg6 arg7 harg7 arg8 harg8 hc0 x0 x1 x2 x3 x4 = k0_pay1 (k0_pay5 x0 x1 x2) (k0_pay7 k0_pay3) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, harg7.read_unread, harg8.read_unread,
    View.ld_unit_zero (S := S2000x256) hz2, View.ld_unit_zero (S := S256x256) hz2, View.ld_unit_zero (S := S256) hz1, View.ld_unit_zero (S := S1x256x256) hz3, View.ld_unit_zero (S := S1x1x256) hz3]

end Pieces

/-! ## The layout operations of the body, read at an index -/

section Layout
variable {α : Type}

/-- A bias vector viewed [1,256] and repeated down the 2000 rows reads, at (r, d), the bias at d. -/
private theorem bias_apply (b : S256.Idx → α) (r : Fin 2000) (d : Fin 256) :
    broadcastTo S2000x256 (shapeCast S1x256 b shapeCasts_S256_S1x256) broadcasts_S1x256_S2000x256 (ix2 r d) = b (ix1 d) := by
  refine (broadcastTo_apply _ broadcasts_S1x256_S2000x256 (ix2 r d) (ix2 (0 : Fin 1) d) ?_).trans ?_
  · intro a
    match a with
    | ⟨0, _⟩ => rfl
    | ⟨1, _⟩ => rfl
  · refine (shapeCast_addUnit_apply ![256] b shapeCasts_S256_S1x256 (ix2 (0 : Fin 1) d)).trans ?_
    exact congrArg b (funext fun a => by match a with | ⟨0, _⟩ => rfl)

/-- A [1,256,256] block viewed [256,256] reads (0, d, e) at (d, e). -/
private theorem drop3_apply (v : S1x256x256.Idx → α) (d e : Fin 256) :
    shapeCast S256x256 v shapeCasts_S1x256x256_S256x256 (ix2 d e) = v (ix3 (0 : Fin 1) d e) := by
  refine (shapeCast_dropUnit_apply ![256, 256] v shapeCasts_S1x256x256_S256x256 (ix2 d e)).trans ?_
  exact congrArg v (funext fun a => by match a with | ⟨0, _⟩ => rfl | ⟨1, _⟩ => rfl | ⟨2, _⟩ => rfl)

/-- A [256,256] matrix stored as a [1,256,256] block reads (d, e) at (0, d, e). -/
private theorem add3_apply (v : S256x256.Idx → α) (d e : Fin 256) :
    shapeCast S1x256x256 v shapeCasts_S256x256_S1x256x256 (ix3 (0 : Fin 1) d e) = v (ix2 d e) := by
  refine (shapeCast_addUnit_apply ![256, 256] v shapeCasts_S256x256_S1x256x256 (ix3 (0 : Fin 1) d e)).trans ?_
  exact congrArg v (funext fun a => by match a with | ⟨0, _⟩ => rfl | ⟨1, _⟩ => rfl)

/-- A [1,1,256] block viewed [1,256] reads (0, 0, d) at (0, d). -/
private theorem drop2_apply (v : S1x1x256.Idx → α) (d : Fin 256) :
    shapeCast S1x256 v shapeCasts_S1x1x256_S1x256 (ix2 (0 : Fin 1) d) = v (ix3 (0 : Fin 1) (0 : Fin 1) d) := by
  refine (shapeCast_dropUnit_apply ![1, 256] v shapeCasts_S1x1x256_S1x256 (ix2 (0 : Fin 1) d)).trans ?_
  exact congrArg v (funext fun a => by match a with | ⟨0, _⟩ => rfl | ⟨1, _⟩ => rfl | ⟨2, _⟩ => rfl)

/-- A [1,256] row stored as a [1,1,256] block reads (0, d) at (0, 0, d). -/
private theorem add2_apply (v : S1x256.Idx → α) (d : Fin 256) :
    shapeCast S1x1x256 v shapeCasts_S1x256_S1x1x256 (ix3 (0 : Fin 1) (0 : Fin 1) d) = v (ix2 (0 : Fin 1) d) := by
  refine (shapeCast_addUnit_apply ![1, 256] v shapeCasts_S1x256_S1x1x256 (ix3 (0 : Fin 1) (0 : Fin 1) d)).trans ?_
  exact congrArg v (funext fun a => by match a with | ⟨0, _⟩ => rfl | ⟨1, _⟩ => rfl)

/-- A [256] vector viewed [1,256] reads d at (0, d). -/
private theorem add1_apply (v : S256.Idx → α) (d : Fin 256) :
    shapeCast S1x256 v shapeCasts_S256_S1x256 (ix2 (0 : Fin 1) d) = v (ix1 d) := by
  refine (shapeCast_addUnit_apply ![256] v shapeCasts_S256_S1x256 (ix2 (0 : Fin 1) d)).trans ?_
  exact congrArg v (funext fun a => by match a with | ⟨0, _⟩ => rfl)

end Layout

/-! ## The three products and the column sum, read at an index over the extended reals -/

section Products

/-- The affine maps' dimension numbers (rows × contraction times contraction × columns): the operand indices, axis by axis. -/
private theorem lin_lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
private theorem lin_lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
private theorem lin_rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
private theorem lin_rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block of rows times a weight matrix, into a zero accumulator, at (r, d): row r of the block against column d. -/
private theorem lin_matmul_apply {φ₁ φ₂ : FTy} (A : FVec Ideal S2000x256 φ₁) (W : FVec Ideal S256x256 φ₂) (r : Fin 2000) (d : Fin 256) :
    matmul (F := Ideal) dot_S2000x256_S256x256_S2000x256_1_0_0_1_n_n none A W (constant (F := Ideal) S2000x256 .f32 0x00000000#32) (ix2 r d)
      = ∑ k : Fin 256, A (ix2 r k) * W (ix2 k d) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r d) ((contrEquiv1 dot_S2000x256_S256x256_S2000x256_1_0_0_1_n_n 256 rfl rfl).symm k) = ix2 r k := funext fun a => Fin.ext (by
    match a with
    | ⟨0, _⟩ => exact lin_lhs_0 _ _
    | ⟨1, _⟩ => exact (lin_lhs_1 _ _).trans hk)
  have er : dot_S2000x256_S256x256_S2000x256_1_0_0_1_n_n.rhsIdx (ix2 r d) ((contrEquiv1 dot_S2000x256_S256x256_S2000x256_1_0_0_1_n_n 256 rfl rfl).symm k) = ix2 k d := funext fun a => Fin.ext (by
    match a with
    | ⟨0, _⟩ => exact (lin_rhs_0 _ _).trans hk
    | ⟨1, _⟩ => exact lin_rhs_1 _ _)
  rw [el, er]

/-- The product over the rows (both operands contracted over their row axis): the operand indices, axis by axis. -/
private theorem kv_lhs_0 (i : S256x256.Idx) (q : dot_S2000x256_S2000x256_S256x256_0_0_1_1_n_n.contr.Idx) :
    (dot_S2000x256_S2000x256_S256x256_0_0_1_1_n_n.lhsIdx i q 0).val = (q ⟨0, by decide⟩).val :=
  dot_S2000x256_S2000x256_S256x256_0_0_1_1_n_n.lhsIdx_val_of_single rfl i q
private theorem kv_lhs_1 (i : S256x256.Idx) (q : dot_S2000x256_S2000x256_S256x256_0_0_1_1_n_n.contr.Idx) :
    (dot_S2000x256_S2000x256_S256x256_0_0_1_1_n_n.lhsIdx i q 1).val = (i 0).val := by
  unfold DotDims.lhsIdx
  rw [dif_neg (show ¬(1 : Fin S2000x256.rank) ∈ dot_S2000x256_S2000x256_S256x256_0_0_1_1_n_n.lhsBatch by decide), dif_pos (show (1 : Fin S2000x256.rank) ∈ dot_S2000x256_S2000x256_S256x256_0_0_1_1_n_n.lhsNonContracting by decide)]
  rfl
private theorem kv_rhs_0 (i : S256x256.Idx) (q : dot_S2000x256_S2000x256_S256x256_0_0_1_1_n_n.contr.Idx) :
    (dot_S2000x256_S2000x256_S256x256_0_0_1_1_n_n.rhsIdx i q 0).val = (q ⟨0, by decide⟩).val :=
  dot_S2000x256_S2000x256_S256x256_0_0_1_1_n_n.rhsIdx_val_of_single rfl i q
private theorem kv_rhs_1 (i : S256x256.Idx) (q : dot_S2000x256_S2000x256_S256x256_0_0_1_1_n_n.contr.Idx) :
    (dot_S2000x256_S2000x256_S256x256_0_0_1_1_n_n.rhsIdx i q 1).val = (i 1).val := by
  unfold DotDims.rhsIdx
  rw [dif_neg (show ¬(1 : Fin S2000x256.rank) ∈ dot_S2000x256_S2000x256_S256x256_0_0_1_1_n_n.rhsBatch by decide), dif_pos (show (1 : Fin S2000x256.rank) ∈ dot_S2000x256_S2000x256_S256x256_0_0_1_1_n_n.rhsNonContracting by decide)]
  rfl

/-- The transposed product of two blocks of rows, into a zero accumulator, at (d, e): the sum over the rows of column d
    of the first against column e of the second. -/
private theorem kv_matmul_apply {φ₁ φ₂ : FTy} (A : FVec Ideal S2000x256 φ₁) (B : FVec Ideal S2000x256 φ₂) (d e : Fin 256) :
    matmul (F := Ideal) dot_S2000x256_S2000x256_S256x256_0_0_1_1_n_n none A B (constant (F := Ideal) S256x256 .f32 0x00000000#32) (ix2 d e)
      = ∑ r : Fin 2000, A (ix2 r d) * B (ix2 r e) := by
  simp only [matmul]
  rw [Ideal.matmul_constant_zero_apply, ← Equiv.sum_comp (contrEquiv1 dot_S2000x256_S2000x256_S256x256_0_0_1_1_n_n 2000 rfl rfl).symm]
  refine Finset.sum_congr rfl fun k _ => ?_
  have hk := contrEquiv1_symm_val dot_S2000x256_S2000x256_S256x256_0_0_1_1_n_n 2000 rfl rfl k
  have el : dot_S2000x256_S2000x256_S256x256_0_0_1_1_n_n.lhsIdx (ix2 d e) ((contrEquiv1 dot_S2000x256_S2000x256_S256x256_0_0_1_1_n_n 2000 rfl rfl).symm k) = ix2 k d := funext fun a => Fin.ext (by
    match a with
    | ⟨0, _⟩ => exact (kv_lhs_0 _ _).trans hk
    | ⟨1, _⟩ => exact kv_lhs_1 _ _)
  have er : dot_S2000x256_S2000x256_S256x256_0_0_1_1_n_n.rhsIdx (ix2 d e) ((contrEquiv1 dot_S2000x256_S2000x256_S256x256_0_0_1_1_n_n 2000 rfl rfl).symm k) = ix2 k e := funext fun a => Fin.ext (by
    match a with
    | ⟨0, _⟩ => exact (kv_rhs_0 _ _).trans hk
    | ⟨1, _⟩ => exact kv_rhs_1 _ _)
  rw [el, er]

/-- The sum down the rows of a block, from the zero word, at d: the sum over the rows of column d. -/
private theorem colsum_apply (v : FVec Ideal S2000x256 .f32) (hφ : FKind.Formats FTy.f32) (hacc : (0x00000000#32 : BitVec 32) = FKind.add.neutral FTy.f32 hφ) (d : Fin 256) :
    multiReduction (F := Ideal) .add [0] S256 v 0x00000000#32 reduces_S2000x256_S256 hφ hacc (ix1 d)
      = ∑ r : Fin 2000, v (ix2 r d) := by
  refine (Ideal.multiReduction_add_single v 0x00000000#32 reduces_S2000x256_S256 hφ hacc (ix1 d)).trans ?_
  refine Finset.sum_congr rfl fun r _ => ?_
  exact congrArg v (funext fun a => Fin.ext (by match a with | ⟨0, _⟩ => rfl | ⟨1, _⟩ => rfl))

end Products

/-! ## The payloads, read at an index over the extended reals -/

section Payloads

/-- The feature block: the affine map of the block's rows by the key weights, clipped below at the zero word. -/
private theorem pay5_apply (v3 : Vec Ideal S2000x256 .f32) (v5 : Vec Ideal S256x256 .f32) (v10 : Vec Ideal S256 .f32) (r : Fin 2000) (d : Fin 256) :
    k0_pay5 (F := Ideal) v3 v5 v10 (ix2 r d) = ReluAttn.blkFeat v3 v5 v10 r d := by
  unfold k0_pay5 k0_pay4 ReluAttn.blkFeat ReluAttn.blkLin
  simp only [maximumf_apply, addf_apply, broadcast_apply, lin_matmul_apply, bias_apply, truncf_apply]
  rfl

/-- Output 5's payload at (0, d, e): the accumulator there plus the block's sum over its rows of feature times value. -/
private theorem pay6_apply (v3 : Vec Ideal S2000x256 .f32) (v5 : Vec Ideal S256x256 .f32) (v7 : Vec Ideal S256x256 .f32) (v10 : Vec Ideal S256 .f32) (v17 : Vec Ideal S256 .f32)
    (v23 : Vec Ideal S1x256x256 .f32) (d e : Fin 256) :
    k0_pay6 (F := Ideal) v3 v5 v7 v10 v17 v23 (ix3 (0 : Fin 1) d e)
      = v23 (ix3 (0 : Fin 1) d e) + ReluAttn.blkKV v3 v5 v10 v7 v17 d e := by
  unfold k0_pay6 k0_pay4 ReluAttn.blkKV ReluAttn.blkLin
  simp only [add3_apply, drop3_apply, addf_apply, kv_matmul_apply, truncf_apply, pay5_apply, lin_matmul_apply, bias_apply]

/-- Output 6's payload at (0, 0, d): the accumulator row there plus the sum down the rows of the feature block. -/
private theorem pay1_apply (v15 : FVec Ideal S2000x256 .f32) (v31 : FVec Ideal S1x256 .f32) (d : Fin 256) :
    k0_pay1 (F := Ideal) v15 v31 (ix3 (0 : Fin 1) (0 : Fin 1) d) = v31 (ix2 (0 : Fin 1) d) + ∑ r : Fin 2000, v15 (ix2 r d) := by
  unfold k0_pay1
  simp only [add2_apply, addf_apply, add1_apply]
  exact congrArg (v31 (ix2 (0 : Fin 1) d) + ·) (colsum_apply v15 _ _ d)

/-- The accumulator row of output 6 as the body reads it. -/
private theorem pay7_apply (v30 : Vec Ideal S1x1x256 .f32) (d : Fin 256) :
    k0_pay7 (F := Ideal) v30 (ix2 (0 : Fin 1) d) = v30 (ix3 (0 : Fin 1) (0 : Fin 1) d) := by
  unfold k0_pay7
  exact drop2_apply v30 d

/-- The zero blocks the first point of a half stores. -/
private theorem pay2_apply (d e : Fin 256) : k0_pay2 (F := Ideal) (ix3 (0 : Fin 1) d e) = ReluAttn.z0 := by
  unfold k0_pay2
  simp only [add3_apply, broadcast_apply]
  rfl
private theorem pay3_apply (d : Fin 256) : k0_pay3 (F := Ideal) (ix3 (0 : Fin 1) (0 : Fin 1) d) = ReluAttn.z0 := by
  unfold k0_pay3
  simp only [add2_apply, broadcast_apply]
  rfl

end Payloads

/-! ## What each case leaves in each output, at an index -/

/-- The first point of a half, output 5: the zero word plus the block's sum over its rows of feature times value. -/
theorem out_A_5 (c : Dev nD) (i : grid0.Coords) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S1x1x256 .f32) (harg8 : arg8.IsWhole) (hc0 : cond0_0 i)
    (x0 : Vec Ideal S2000x256 .f32) (x1 : Vec Ideal S256x256 .f32) (x2 : Vec Ideal S256 .f32) (x3 : Vec Ideal S256x256 .f32) (x4 : Vec Ideal S256 .f32) (d e : Fin 256) :
    out0_A_5 (F := Ideal) c i arg2 harg2 arg3 harg3 arg4 harg4 arg5 harg5 arg6 harg6 arg7 harg7 arg8 harg8 hc0 x0 x1 x2 x3 x4 (ix3 (0 : Fin 1) d e)
      = ReluAttn.z0 + ReluAttn.blkKV x0 x1 x2 x3 x4 d e := by
  refine (congrFun (piece_A_5 (F := Ideal) c i arg2 harg2 arg3 harg3 arg4 harg4 arg5 harg5 arg6 harg6 arg7 harg7 arg8 harg8 hc0 x0 x1 x2 x3 x4) (ix3 (0 : Fin 1) d e)).trans ?_
  refine (pay6_apply x0 x1 x3 x2 x4 (k0_pay2 (F := Ideal)) d e).trans ?_
  exact congrArg (· + ReluAttn.blkKV x0 x1 x2 x3 x4 d e) (pay2_apply d e)

/-- Every other point, output 5: what the point before left plus the block's sum of feature times value. -/
theorem out_B_5 (c : Dev nD) (i : grid0.Coords) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S1x1x256 .f32) (harg8 : arg8.IsWhole) (hc0 : ¬cond0_0 i)
    (x0 : Vec Ideal S2000x256 .f32) (x1 : Vec Ideal S256x256 .f32) (x2 : Vec Ideal S256 .f32) (x3 : Vec Ideal S256x256 .f32) (x4 : Vec Ideal S256 .f32) (xo5 : Vec Ideal S1x256x256 .f32) (xo6 : Vec Ideal S1x1x256 .f32) (d e : Fin 256) :
    out0_B_5 (F := Ideal) c i arg2 harg2 arg3 harg3 arg4 harg4 arg5 harg5 arg6 harg6 arg7 harg7 arg8 harg8 hc0 x0 x1 x2 x3 x4 xo5 xo6 (ix3 (0 : Fin 1) d e)
      = xo5 (ix3 (0 : Fin 1) d e) + ReluAttn.blkKV x0 x1 x2 x3 x4 d e := by
  refine (congrFun (piece_B_5 (F := Ideal) c i arg2 harg2 arg3 harg3 arg4 harg4 arg5 harg5 arg6 harg6 arg7 harg7 arg8 harg8 hc0 x0 x1 x2 x3 x4 xo5 xo6) (ix3 (0 : Fin 1) d e)).trans ?_
  exact pay6_apply x0 x1 x3 x2 x4 xo5 d e

/-- The first point of a half, output 6: the zero word plus the block's column sum of the features. -/
theorem out_A_6 (c : Dev nD) (i : grid0.Coords) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S1x1x256 .f32) (harg8 : arg8.IsWhole) (hc0 : cond0_0 i)
    (x0 : Vec Ideal S2000x256 .f32) (x1 : Vec Ideal S256x256 .f32) (x2 : Vec Ideal S256 .f32) (x3 : Vec Ideal S256x256 .f32) (x4 : Vec Ideal S256 .f32) (d : Fin 256) :
    out0_A_6 (F := Ideal) c i arg2 harg2 arg3 harg3 arg4 harg4 arg5 harg5 arg6 harg6 arg7 harg7 arg8 harg8 hc0 x0 x1 x2 x3 x4 (ix3 (0 : Fin 1) (0 : Fin 1) d)
      = ReluAttn.z0 + ReluAttn.blkKS x0 x1 x2 d := by
  refine (congrFun (piece_A_6 (F := Ideal) c i arg2 harg2 arg3 harg3 arg4 harg4 arg5 harg5 arg6 harg6 arg7 harg7 arg8 harg8 hc0 x0 x1 x2 x3 x4) (ix3 (0 : Fin 1) (0 : Fin 1) d)).trans ?_
  refine (pay1_apply (k0_pay5 (F := Ideal) x0 x1 x2) (k0_pay7 (F := Ideal) (k0_pay3 (F := Ideal))) d).trans ?_
  unfold ReluAttn.blkKS
  rw [pay7_apply, pay3_apply]
  exact congrArg (ReluAttn.z0 + ·) (Finset.sum_congr rfl fun r _ => pay5_apply x0 x1 x2 r d)

/-- Every other point, output 6: what the point before left plus the block's column sum of the features. -/
theorem out_B_6 (c : Dev nD) (i : grid0.Coords) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S1x1x256 .f32) (harg8 : arg8.IsWhole) (hc0 : ¬cond0_0 i)
    (x0 : Vec Ideal S2000x256 .f32) (x1 : Vec Ideal S256x256 .f32) (x2 : Vec Ideal S256 .f32) (x3 : Vec Ideal S256x256 .f32) (x4 : Vec Ideal S256 .f32) (xo5 : Vec Ideal S1x256x256 .f32) (xo6 : Vec Ideal S1x1x256 .f32) (d : Fin 256) :
    out0_B_6 (F := Ideal) c i arg2 harg2 arg3 harg3 arg4 harg4 arg5 harg5 arg6 harg6 arg7 harg7 arg8 harg8 hc0 x0 x1 x2 x3 x4 xo5 xo6 (ix3 (0 : Fin 1) (0 : Fin 1) d)
      = xo6 (ix3 (0 : Fin 1) (0 : Fin 1) d) + ReluAttn.blkKS x0 x1 x2 d := by
  refine (congrFun (piece_B_6 (F := Ideal) c i arg2 harg2 arg3 harg3 arg4 harg4 arg5 harg5 arg6 harg6 arg7 harg7 arg8 harg8 hc0 x0 x1 x2 x3 x4 xo5 xo6) (ix3 (0 : Fin 1) (0 : Fin 1) d)).trans ?_
  refine (pay1_apply (k0_pay5 (F := Ideal) x0 x1 x2) (k0_pay7 (F := Ideal) xo6) d).trans ?_
  unfold ReluAttn.blkKS
  rw [pay7_apply]
  exact congrArg (xo6 (ix3 (0 : Fin 1) (0 : Fin 1) d) + ·) (Finset.sum_congr rfl fun r _ => pay5_apply x0 x1 x2 r d)

end Cert.KernelIdeal.Pass1

end
-- ==== Proof.Pass1Fold.lean ====
import proofs.«400756_j25658134626478_3_alg».proof.Proof.Gen.KernelIdeal.Frame
import proofs.«400756_j25658134626478_3_alg».proof.Proof.Spec
import proofs.«400756_j25658134626478_3_alg».proof.Proof.Pass1Pieces
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass1

open Cert.KernelIdeal Cert.KernelIdeal.Gen

variable (V : (c : Dev nD) → (b : Ref sig .tc) → Buf (Elt Ideal) ((c : Thread nD τ).loc b))

/-! ## The blocks pass 1 reads at a grid point

Point t reads rows 2000 t … 2000 t + 1999 of x; the two weight matrices and the two bias vectors are read whole. -/

/-- The block of x at point t, and the four whole arrays as the point sees them, each at its literal shape. -/
private abbrev xblk (c : Dev nD) (t : Fin cfg0.N) : Vec Ideal S2000x256 .f32 := iblk0 (F := Ideal) V c 0 t
private abbrev wkblk (c : Dev nD) (t : Fin cfg0.N) : Vec Ideal S256x256 .f32 := iblk0 (F := Ideal) V c 1 t
private abbrev bkblk (c : Dev nD) (t : Fin cfg0.N) : Vec Ideal S256 .f32 := iblk0 (F := Ideal) V c 2 t
private abbrev wvblk (c : Dev nD) (t : Fin cfg0.N) : Vec Ideal S256x256 .f32 := iblk0 (F := Ideal) V c 3 t
private abbrev bvblk (c : Dev nD) (t : Fin cfg0.N) : Vec Ideal S256 .f32 := iblk0 (F := Ideal) V c 4 t
/-- The arrays themselves. -/
private abbrev xarr (c : Dev nD) : Vec Ideal S100000x256 .f32 := V c main_arg0
private abbrev wkarr (c : Dev nD) : Vec Ideal S256x256 .f32 := V c main_arg3
private abbrev bkarr (c : Dev nD) : Vec Ideal S256 .f32 := V c main_arg4
private abbrev wvarr (c : Dev nD) : Vec Ideal S256x256 .f32 := V c main_arg5
private abbrev bvarr (c : Dev nD) : Vec Ideal S256 .f32 := V c main_arg6

/-- Entry (r, k) of the block of x at point t is entry k of row 2000 t + r. -/
private theorem xblk_apply (c : Dev nD) (t : Fin cfg0.N) (r : Fin 2000) (k : Fin 256) :
    xblk V c t (ix2 r k) = ReluAttn.xrow (xarr V c) (2000 * t.val + r.val) k := by
  have hi : ∀ t : Fin cfg0.N, win0_0.index t 0 = t.val ∧ win0_0.index t 1 = 0 :=
    (by decide +kernel : ∀ t : Fin grid0.N, win0_0.index t 0 = t.val ∧ win0_0.index t 1 = 0)
  have hN : cfg0.N = 50 := N_0
  have hlt : 2000 * t.val + r.val < 100000 := by have := t.isLt; have := r.isLt; omega
  rw [ReluAttn.xrow_of_lt _ _ hlt]
  unfold xblk iblk0
  rw [View.read_apply]
  show V c main_arg0 _ = V c main_arg0 _
  congr 1
  funext a
  apply Fin.ext
  match a with
  | ⟨0, _⟩ => show win0_0.index t 0 * 2000 + 1 * r.val = 2000 * t.val + r.val; rw [(hi t).1]; omega
  | ⟨1, _⟩ => show win0_0.index t 1 * 256 + 1 * k.val = k.val; rw [(hi t).2]; omega

/-- The block of a whole-array window is the array: its block index is zero on every axis. -/
private theorem wkblk_eq (c : Dev nD) (t : Fin cfg0.N) : wkblk V c t = wkarr V c := by
  have hi : ∀ t : Fin cfg0.N, win0_1.index t 0 = 0 ∧ win0_1.index t 1 = 0 :=
    (by decide +kernel : ∀ t : Fin grid0.N, win0_1.index t 0 = 0 ∧ win0_1.index t 1 = 0)
  funext j
  unfold wkblk iblk0
  rw [View.read_apply]
  show V c main_arg3 _ = V c main_arg3 _
  congr 1
  funext a
  apply Fin.ext
  match a with
  | ⟨0, _⟩ => show win0_1.index t 0 * 256 + 1 * (j 0).val = (j 0).val; rw [(hi t).1]; omega
  | ⟨1, _⟩ => show win0_1.index t 1 * 256 + 1 * (j 1).val = (j 1).val; rw [(hi t).2]; omega

private theorem bkblk_eq (c : Dev nD) (t : Fin cfg0.N) : bkblk V c t = bkarr V c := by
  have hi : ∀ t : Fin cfg0.N, win0_2.index t 0 = 0 :=
    (by decide +kernel : ∀ t : Fin grid0.N, win0_2.index t 0 = 0)
  funext j
  unfold bkblk iblk0
  rw [View.read_apply]
  show V c main_arg4 _ = V c main_arg4 _
  congr 1
  funext a
  apply Fin.ext
  match a with
  | ⟨0, _⟩ => show win0_2.index t 0 * 256 + 1 * (j 0).val = (j 0).val; rw [hi t]; omega

private theorem wvblk_eq (c : Dev nD) (t : Fin cfg0.N) : wvblk V c t = wvarr V c := by
  have hi : ∀ t : Fin cfg0.N, win0_3.index t 0 = 0 ∧ win0_3.index t 1 = 0 :=
    (by decide +kernel : ∀ t : Fin grid0.N, win0_3.index t 0 = 0 ∧ win0_3.index t 1 = 0)
  funext j
  unfold wvblk iblk0
  rw [View.read_apply]
  show V c main_arg5 _ = V c main_arg5 _
  congr 1
  funext a
  apply Fin.ext
  match a with
  | ⟨0, _⟩ => show win0_3.index t 0 * 256 + 1 * (j 0).val = (j 0).val; rw [(hi t).1]; omega
  | ⟨1, _⟩ => show win0_3.index t 1 * 256 + 1 * (j 1).val = (j 1).val; rw [(hi t).2]; omega

private theorem bvblk_eq (c : Dev nD) (t : Fin cfg0.N) : bvblk V c t = bvarr V c := by
  have hi : ∀ t : Fin cfg0.N, win0_4.index t 0 = 0 :=
    (by decide +kernel : ∀ t : Fin grid0.N, win0_4.index t 0 = 0)
  funext j
  unfold bvblk iblk0
  rw [View.read_apply]
  show V c main_arg6 _ = V c main_arg6 _
  congr 1
  funext a
  apply Fin.ext
  match a with
  | ⟨0, _⟩ => show win0_4.index t 0 * 256 + 1 * (j 0).val = (j 0).val; rw [hi t]; omega

/-! ## One point's addends: the block's sums are the sums over its rows of x -/

/-- The affine map on a block of x is the affine map on x at the block's rows. -/
private theorem blkLin_xblk (c : Dev nD) (t : Fin cfg0.N) (W : ReluAttn.SW.Idx → EReal) (b : ReluAttn.SB.Idx → EReal)
    (r : Fin 2000) (d : Fin 256) :
    ReluAttn.blkLin (xblk V c t) W b r d = ReluAttn.lin (xarr V c) W b (2000 * t.val + r.val) d := by
  unfold ReluAttn.blkLin ReluAttn.lin
  congr 1
  exact Finset.sum_congr rfl fun k _ => congrArg (· * W (ix2 k d)) (xblk_apply V c t r k)

/-- Point t's addend to KV[d,e]: the sum of its 2000 rows' contributions. -/
private theorem blkKV_point (c : Dev nD) (t : Fin cfg0.N) (d e : Fin 256) :
    ReluAttn.blkKV (xblk V c t) (wkblk V c t) (bkblk V c t) (wvblk V c t) (bvblk V c t) d e
      = ∑ r : Fin 2000, ReluAttn.kvTerm (xarr V c) (wkarr V c) (bkarr V c) (wvarr V c) (bvarr V c) d e (2000 * t.val + r.val) := by
  rw [wkblk_eq, bkblk_eq, wvblk_eq, bvblk_eq]
  unfold ReluAttn.blkKV ReluAttn.kvTerm ReluAttn.blkFeat ReluAttn.feat
  refine Finset.sum_congr rfl fun r _ => ?_
  rw [blkLin_xblk, blkLin_xblk]

/-- Point t's addend to KS[d]: the sum of its 2000 rows' features. -/
private theorem blkKS_point (c : Dev nD) (t : Fin cfg0.N) (d : Fin 256) :
    ReluAttn.blkKS (xblk V c t) (wkblk V c t) (bkblk V c t) d
      = ∑ r : Fin 2000, ReluAttn.feat (xarr V c) (wkarr V c) (bkarr V c) (2000 * t.val + r.val) d := by
  rw [wkblk_eq, bkblk_eq]
  unfold ReluAttn.blkKS ReluAttn.blkFeat ReluAttn.feat
  refine Finset.sum_congr rfl fun r _ => ?_
  rw [blkLin_xblk]

/-! ## What one point does to the two accumulators -/

/-- At the first point of a half the KV accumulator is reset: the zero plus the point's addend. -/
private theorem kv_reset (c : Dev nD) (t : Fin cfg0.N) (h0 : t.val % 25 = 0) (d e : Fin 256) :
    (outsAt0 (F := Ideal) V c t.val t.isLt).1 (ix3 (0 : Fin 1) d e)
      = ReluAttn.z0 + ReluAttn.blkKV (xblk V c t) (wkblk V c t) (bkblk V c t) (wvblk V c t) (bvblk V c t) d e := by
  rw [outsAt0_A V c t h0]
  dsimp only
  exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (wkblk V c t) (bkblk V c t) (wvblk V c t) (bvblk V c t) d e

/-- At every other point it takes what the point before left plus the point's addend. -/
private theorem kv_step (c : Dev nD) (t : Fin cfg0.N) (h0 : ¬t.val % 25 = 0) (d e : Fin 256) :
    (outsAt0 (F := Ideal) V c t.val t.isLt).1 (ix3 (0 : Fin 1) d e)
      = (outsAt0 V c (t.val - 1) (Nat.lt_of_le_of_lt (Nat.sub_le _ _) t.isLt)).1 (ix3 (0 : Fin 1) d e)
        + ReluAttn.blkKV (xblk V c t) (wkblk V c t) (bkblk V c t) (wvblk V c t) (bvblk V c t) d e := by
  rw [outsAt0_B V c t h0]
  dsimp only
  exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (wkblk V c t) (bkblk V c t) (wvblk V c t) (bvblk V c t) (outsAt0 V c (t.val - 1) (Nat.lt_of_le_of_lt (Nat.sub_le _ _) t.isLt)).1 (outsAt0 V c (t.val - 1) (Nat.lt_of_le_of_lt (Nat.sub_le _ _) t.isLt)).2 d e

/-- The same two facts for the KS accumulator. -/
private theorem ks_reset (c : Dev nD) (t : Fin cfg0.N) (h0 : t.val % 25 = 0) (d : Fin 256) :
    (outsAt0 (F := Ideal) V c t.val t.isLt).2 (ix3 (0 : Fin 1) (0 : Fin 1) d)
      = ReluAttn.z0 + ReluAttn.blkKS (xblk V c t) (wkblk V c t) (bkblk V c t) d := by
  rw [outsAt0_A V c t h0]
  dsimp only
  exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (wkblk V c t) (bkblk V c t) (wvblk V c t) (bvblk V c t) d

private theorem ks_step (c : Dev nD) (t : Fin cfg0.N) (h0 : ¬t.val % 25 = 0) (d : Fin 256) :
    (outsAt0 (F := Ideal) V c t.val t.isLt).2 (ix3 (0 : Fin 1) (0 : Fin 1) d)
      = (outsAt0 V c (t.val - 1) (Nat.lt_of_le_of_lt (Nat.sub_le _ _) t.isLt)).2 (ix3 (0 : Fin 1) (0 : Fin 1) d)
        + ReluAttn.blkKS (xblk V c t) (wkblk V c t) (bkblk V c t) d := by
  rw [outsAt0_B V c t h0]
  dsimp only
  exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (wkblk V c t) (bkblk V c t) (wvblk V c t) (bvblk V c t) (outsAt0 V c (t.val - 1) (Nat.lt_of_le_of_lt (Nat.sub_le _ _) t.isLt)).1 (outsAt0 V c (t.val - 1) (Nat.lt_of_le_of_lt (Nat.sub_le _ _) t.isLt)).2 d

/-! ## The accumulators after point n: the zero plus the addends of the half's points up to n -/

/-- Point p's addend to KV[d,e] and to KS[d], for any natural p (past the grid x's rows are zero, and no sum
    below reaches there). -/
private def kvAdd (c : Dev nD) (d e : Fin 256) (p : ℕ) : EReal :=
  ∑ r : Fin 2000, ReluAttn.kvTerm (xarr V c) (wkarr V c) (bkarr V c) (wvarr V c) (bvarr V c) d e (2000 * p + r.val)
private def ksAdd (c : Dev nD) (d : Fin 256) (p : ℕ) : EReal :=
  ∑ r : Fin 2000, ReluAttn.feat (xarr V c) (wkarr V c) (bkarr V c) (2000 * p + r.val) d

/-- A sum over the points of n's run of 25, from the run's first point up to n: at the first point it is that
    point's term alone; -/
private theorem run_sum_first (M : ℕ → EReal) (n : ℕ) (h0 : n % 25 = 0) :
    ∑ s ∈ Finset.range (n % 25 + 1), M (25 * (n / 25) + s) = M n := by
  rw [h0, Finset.sum_range_one]
  congr 1
  omega

/-- at any other point it is the sum up to the point before, plus the point's term. -/
private theorem run_sum_next (M : ℕ → EReal) (n : ℕ) (h0 : ¬(n + 1) % 25 = 0) :
    ∑ s ∈ Finset.range ((n + 1) % 25 + 1), M (25 * ((n + 1) / 25) + s)
      = (∑ s ∈ Finset.range (n % 25 + 1), M (25 * (n / 25) + s)) + M (n + 1) := by
  have h1 : (n + 1) % 25 = n % 25 + 1 := by omega
  have h2 : (n + 1) / 25 = n / 25 := by omega
  rw [h1, h2, Finset.sum_range_succ]
  congr 2
  omega

/-- The KV accumulator after point n, by induction on the point. -/
private theorem kv_inv (c : Dev nD) (d e : Fin 256) (n : ℕ) : ∀ hn : n < cfg0.N,
    (outsAt0 (F := Ideal) V c n hn).1 (ix3 (0 : Fin 1) d e)
      = ReluAttn.z0 + ∑ s ∈ Finset.range (n % 25 + 1), kvAdd V c d e (25 * (n / 25) + s) := by
  induction n with
  | zero =>
    intro hn
    rw [run_sum_first _ 0 rfl]
    exact (kv_reset V c ⟨0, hn⟩ rfl d e).trans (congrArg (ReluAttn.z0 + ·) (blkKV_point V c ⟨0, hn⟩ d e))
  | succ n ih =>
    intro hn
    by_cases h0 : (n + 1) % 25 = 0
    · rw [run_sum_first _ (n + 1) h0]
      exact (kv_reset V c ⟨n + 1, hn⟩ h0 d e).trans (congrArg (ReluAttn.z0 + ·) (blkKV_point V c ⟨n + 1, hn⟩ d e))
    · rw [run_sum_next _ n h0, ← add_assoc]
      refine (kv_step V c ⟨n + 1, hn⟩ h0 d e).trans ?_
      rw [blkKV_point]
      exact congrArg (· + kvAdd V c d e (n + 1)) (ih (Nat.lt_of_succ_lt hn))

/-- The KS accumulator after point n, likewise. -/
private theorem ks_inv (c : Dev nD) (d : Fin 256) (n : ℕ) : ∀ hn : n < cfg0.N,
    (outsAt0 (F := Ideal) V c n hn).2 (ix3 (0 : Fin 1) (0 : Fin 1) d)
      = ReluAttn.z0 + ∑ s ∈ Finset.range (n % 25 + 1), ksAdd V c d (25 * (n / 25) + s) := by
  induction n with
  | zero =>
    intro hn
    rw [run_sum_first _ 0 rfl]
    exact (ks_reset V c ⟨0, hn⟩ rfl d).trans (congrArg (ReluAttn.z0 + ·) (blkKS_point V c ⟨0, hn⟩ d))
  | succ n ih =>
    intro hn
    by_cases h0 : (n + 1) % 25 = 0
    · rw [run_sum_first _ (n + 1) h0]
      exact (ks_reset V c ⟨n + 1, hn⟩ h0 d).trans (congrArg (ReluAttn.z0 + ·) (blkKS_point V c ⟨n + 1, hn⟩ d))
    · rw [run_sum_next _ n h0, ← add_assoc]
      refine (ks_step V c ⟨n + 1, hn⟩ h0 d).trans ?_
      rw [blkKS_point]
      exact congrArg (· + ksAdd V c d (n + 1)) (ih (Nat.lt_of_succ_lt hn))

/-! ## The result arrays

Each half's accumulators are written back once, after the half's last point 25 h + 24, to block (h, 0, 0) of the
result arrays; there the run's sum is the half's whole partial sum. -/

/-- The whole-array contents the write-backs of the KV window agree with: half h's partial sum at (h, d, e). -/
private abbrev kvG (c : Dev nD) : Vec Ideal S2x256x256 .f32 :=
  fun i => ReluAttn.kvPart (xarr V c) (wkarr V c) (bkarr V c) (wvarr V c) (bvarr V c) (i 0).val (i 1) (i 2)

/-- Likewise for the KS window: half h's column sums at (h, 0, d). -/
private abbrev ksG (c : Dev nD) : Vec Ideal S2x1x256 .f32 :=
  fun i => ReluAttn.ksPart (xarr V c) (wkarr V c) (bkarr V c) (i 0).val (i 2)

/-- What a write-back of the KV window writes is its block of those contents. -/
private theorem flushed_kv (c : Dev nD) (t : Fin cfg0.N) (hf : (cfg0.win 5).flush t = true) :
    (dat0 (F := Ideal) V c).flushed 5 t = ((cfg0.win 5).blk t).view.read (Elt Ideal) (kvG V c) := by
  have h24 : t.val % 25 = 24 := (flush0_5 t).mp hf
  have hi : ∀ t : Fin cfg0.N, win0_5.index t 0 = t.val / 25 ∧ win0_5.index t 1 = 0 ∧ win0_5.index t 2 = 0 :=
    (by decide +kernel : ∀ t : Fin grid0.N, win0_5.index t 0 = t.val / 25 ∧ win0_5.index t 1 = 0 ∧ win0_5.index t 2 = 0)
  have hN : cfg0.N = 50 := N_0
  have hh : t.val / 25 < 2 := by have := t.isLt; omega
  show (cfg0.win 5).cut (grid0.coords t) ((dat0 (F := Ideal) V c).after 5 t) = _
  rw [after0_5]
  funext y
  rw [View.read_apply]
  obtain ⟨d, e, rfl⟩ : ∃ (d e : Fin 256), y = ix3 (0 : Fin 1) d e :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  show (outsAt0 (F := Ideal) V c t.val t.isLt).1 (ix3 (0 : Fin 1) d e)
    = kvG V c (((cfg0.win 5).blk t).view.emb (ix3 (0 : Fin 1) d e))
  have hemb : ((cfg0.win 5).blk t).view.emb (ix3 (0 : Fin 1) d e) = ix3 (⟨t.val / 25, hh⟩ : Fin 2) d e := by
    funext a
    apply Fin.ext
    match a with
    | ⟨0, _⟩ => show win0_5.index t 0 * 1 + 1 * 0 = t.val / 25; rw [(hi t).1]; omega
    | ⟨1, _⟩ => show win0_5.index t 1 * 256 + 1 * d.val = d.val; rw [(hi t).2.1]; omega
    | ⟨2, _⟩ => show win0_5.index t 2 * 256 + 1 * e.val = e.val; rw [(hi t).2.2]; omega
  rw [hemb, kv_inv V c d e t.val t.isLt, h24]
  rfl

/-- What a write-back of the KS window writes is its block of those contents. -/
private theorem flushed_ks (c : Dev nD) (t : Fin cfg0.N) (hf : (cfg0.win 6).flush t = true) :
    (dat0 (F := Ideal) V c).flushed 6 t = ((cfg0.win 6).blk t).view.read (Elt Ideal) (ksG V c) := by
  have h24 : t.val % 25 = 24 := (flush0_6 t).mp hf
  have hi : ∀ t : Fin cfg0.N, win0_6.index t 0 = t.val / 25 ∧ win0_6.index t 1 = 0 ∧ win0_6.index t 2 = 0 :=
    (by decide +kernel : ∀ t : Fin grid0.N, win0_6.index t 0 = t.val / 25 ∧ win0_6.index t 1 = 0 ∧ win0_6.index t 2 = 0)
  have hN : cfg0.N = 50 := N_0
  have hh : t.val / 25 < 2 := by have := t.isLt; omega
  show (cfg0.win 6).cut (grid0.coords t) ((dat0 (F := Ideal) V c).after 6 t) = _
  rw [after0_6]
  funext y
  rw [View.read_apply]
  obtain ⟨d, rfl⟩ : ∃ (d : Fin 256), y = ix3 (0 : Fin 1) (0 : Fin 1) d :=
    ⟨y 2, funext fun a => match a with
      | ⟨0, _⟩ => Fin.ext (by have h : (y 0).val < 1 := (y 0).isLt; show (y 0).val = 0; omega)
      | ⟨1, _⟩ => Fin.ext (by have h : (y 1).val < 1 := (y 1).isLt; show (y 1).val = 0; omega)
      | ⟨2, _⟩ => rfl⟩
  show (outsAt0 (F := Ideal) V c t.val t.isLt).2 (ix3 (0 : Fin 1) (0 : Fin 1) d)
    = ksG V c (((cfg0.win 6).blk t).view.emb (ix3 (0 : Fin 1) (0 : Fin 1) d))
  have hemb : ((cfg0.win 6).blk t).view.emb (ix3 (0 : Fin 1) (0 : Fin 1) d)
      = ix3 (⟨t.val / 25, hh⟩ : Fin 2) (0 : Fin 1) d := by
    funext a
    apply Fin.ext
    match a with
    | ⟨0, _⟩ => show win0_6.index t 0 * 1 + 1 * 0 = t.val / 25; rw [(hi t).1]; omega
    | ⟨1, _⟩ => show win0_6.index t 1 * 1 + 1 * 0 = 0; rw [(hi t).2.1]
    | ⟨2, _⟩ => show win0_6.index t 2 * 256 + 1 * d.val = d.val; rw [(hi t).2.2]; omega
  rw [hemb, ks_inv V c d t.val t.isLt, h24]
  rfl

/-- The last point of half h. -/
private abbrev lastPt (h : Fin 2) : Fin cfg0.N := ⟨25 * h.val + 24, by have := h.isLt; show 25 * h.val + 24 < grid0.N; rw [N_0]; omega⟩

/-- (h, d, e) lies in the block of the KV result array that half h's last point writes back. -/
theorem final_kv (c : Dev nD) (h : Fin 2) (d e : Fin 256) :
    (dat0 (F := Ideal) V c).arrAt 5 cfg0.N (ix3 h d e)
      = ReluAttn.kvPart (V c main_arg0) (V c main_arg3) (V c main_arg4) (V c main_arg5) (V c main_arg6) h.val d e := by
  have hi : ∀ t : Fin cfg0.N, win0_5.index t 0 = t.val / 25 ∧ win0_5.index t 1 = 0 ∧ win0_5.index t 2 = 0 :=
    (by decide +kernel : ∀ t : Fin grid0.N, win0_5.index t 0 = t.val / 25 ∧ win0_5.index t 1 = 0 ∧ win0_5.index t 2 = 0)
  have hq : (lastPt h).val / 25 = h.val := by show (25 * h.val + 24) / 25 = h.val; omega
  have hf : (cfg0.win 5).flush (lastPt h) = true :=
    (flush0_5 (lastPt h)).mpr (by show (25 * h.val + 24) % 25 = 24; omega)
  refine ((dat0 (F := Ideal) V c).arrAt_apply_of_mem 5 (kvG V c) (flushed_kv V c) cfg0.N (lastPt h) (ix3 h d e)
    (lastPt h).isLt hf ?_).trans rfl
  show ix3 h d e ∈ ((View.whole main_v0_0).slice (win0_5.rect (lastPt h))).set
  rw [View.set_slice_whole, Rect.mem_set_unit]
  intro a
  match a with
  | ⟨0, _⟩ =>
    show win0_5.index (lastPt h) 0 * 1 ≤ h.val ∧ h.val < win0_5.index (lastPt h) 0 * 1 + 1
    rw [(hi (lastPt h)).1, hq]; omega
  | ⟨1, _⟩ =>
    show win0_5.index (lastPt h) 1 * 256 ≤ d.val ∧ d.val < win0_5.index (lastPt h) 1 * 256 + 256
    rw [(hi (lastPt h)).2.1]; have := d.isLt; omega
  | ⟨2, _⟩ =>
    show win0_5.index (lastPt h) 2 * 256 ≤ e.val ∧ e.val < win0_5.index (lastPt h) 2 * 256 + 256
    rw [(hi (lastPt h)).2.2]; have := e.isLt; omega

/-- (h, 0, d) lies in the block of the KS result array that half h's last point writes back. -/
theorem final_ks (c : Dev nD) (h : Fin 2) (d : Fin 256) :
    (dat0 (F := Ideal) V c).arrAt 6 cfg0.N (ix3 h (0 : Fin 1) d)
      = ReluAttn.ksPart (V c main_arg0) (V c main_arg3) (V c main_arg4) h.val d := by
  have hi : ∀ t : Fin cfg0.N, win0_6.index t 0 = t.val / 25 ∧ win0_6.index t 1 = 0 ∧ win0_6.index t 2 = 0 :=
    (by decide +kernel : ∀ t : Fin grid0.N, win0_6.index t 0 = t.val / 25 ∧ win0_6.index t 1 = 0 ∧ win0_6.index t 2 = 0)
  have hq : (lastPt h).val / 25 = h.val := by show (25 * h.val + 24) / 25 = h.val; omega
  have hf : (cfg0.win 6).flush (lastPt h) = true :=
    (flush0_6 (lastPt h)).mpr (by show (25 * h.val + 24) % 25 = 24; omega)
  refine ((dat0 (F := Ideal) V c).arrAt_apply_of_mem 6 (ksG V c) (flushed_ks V c) cfg0.N (lastPt h)
    (ix3 h (0 : Fin 1) d) (lastPt h).isLt hf ?_).trans rfl
  show ix3 h (0 : Fin 1) d ∈ ((View.whole main_v0_1).slice (win0_6.rect (lastPt h))).set
  rw [View.set_slice_whole, Rect.mem_set_unit]
  intro a
  match a with
  | ⟨0, _⟩ =>
    show win0_6.index (lastPt h) 0 * 1 ≤ h.val ∧ h.val < win0_6.index (lastPt h) 0 * 1 + 1
    rw [(hi (lastPt h)).1, hq]; omega
  | ⟨1, _⟩ =>
    show win0_6.index (lastPt h) 1 * 1 ≤ 0 ∧ 0 < win0_6.index (lastPt h) 1 * 1 + 1
    rw [(hi (lastPt h)).2.1]; omega
  | ⟨2, _⟩ =>
    show win0_6.index (lastPt h) 2 * 256 ≤ d.val ∧ d.val < win0_6.index (lastPt h) 2 * 256 + 256
    rw [(hi (lastPt h)).2.2]; have := d.isLt; omega

end Cert.KernelIdeal.Pass1

end
-- ==== Proof.Pass2.lean ====
import proofs.«400756_j25658134626478_3_alg».proof.Proof.Gen.KernelIdeal.Frame
import proofs.«400756_j25658134626478_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass2

open Cert.KernelIdeal Cert.KernelIdeal.Gen

/-! ## Two keepdims layout forms read at an index -/

/-- A vector of length a cast to a column [a, 1] reads, at (i, u), the vector at i. -/
private theorem cast_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its unit axis to [a, b] reads, at (i, c), the column at (i, 0). -/
private theorem bcast_col {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The product of a block of rows with a square matrix, at an index

The contraction record of both products of the second pass: the left operand's axis 1 against the right operand's
axis 0, no batch axis.  The four coordinate facts of the operand indices come first, each at a literal axis. -/

private theorem lhs_ax0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
private theorem lhs_ax1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
private theorem rhs_ax0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
private theorem rhs_ax1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The product into a zero accumulator at (r, e): the sum over k of row r of the left operand against column e
    of the right. -/
private theorem prod_apply (a : FVec Ideal S4000x256 .bf16) (b : FVec Ideal S256x256 .bf16) (r : Fin 4000) (e : Fin 256) :
    matmul dot_S4000x256_S256x256_S4000x256_1_0_0_1_n_n none a b (constant (F := Ideal) S4000x256 .f32 0x00000000#32) (ix2 r e)
      = ∑ k : Fin 256, a (ix2 r k) * b (ix2 k e) := by
  refine (Ideal.matmul_constant_zero_apply dot_S4000x256_S256x256_S4000x256_1_0_0_1_n_n none a b (ix2 r e)).trans ?_
  rw [← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 r e) ((contrEquiv1 dot_S4000x256_S256x256_S4000x256_1_0_0_1_n_n 256 rfl rfl).symm k) = ix2 r k := funext fun ax => Fin.ext (by
    match ax with
    | ⟨0, _⟩ => exact lhs_ax0 _ _
    | ⟨1, _⟩ => exact (lhs_ax1 _ _).trans hk)
  have er : dot_S4000x256_S256x256_S4000x256_1_0_0_1_n_n.rhsIdx (ix2 r e) ((contrEquiv1 dot_S4000x256_S256x256_S4000x256_1_0_0_1_n_n 256 rfl rfl).symm k) = ix2 k e := funext fun ax => Fin.ext (by
    match ax with
    | ⟨0, _⟩ => exact (rhs_ax0 _ _).trans hk
    | ⟨1, _⟩ => exact rhs_ax1 _ _)
  rw [el, er]

/-- The sum along the lanes of a block, from the zero word, at row r: the sum over d of the block at (r, d). -/
private theorem lane_sum_apply (v : FVec Ideal S4000x256 .f32) (hφ : FKind.Formats FTy.f32)
    (hacc : (0x00000000#32 : BitVec 32) = 0x00000000#32) (r : Fin 4000) :
    multiReduction .add [1] S4000 v 0x00000000#32 reduces_S4000x256_S4000 hφ hacc (ix1 r) = ∑ d : Fin 256, v (ix2 r d) := by
  refine (Ideal.multiReduction_add_single v 0x00000000#32 reduces_S4000x256_S4000 hφ hacc (ix1 r)).trans ?_
  refine Finset.sum_congr rfl fun d _ => congrArg v (funext fun ax => Fin.ext ?_)
  match ax with
  | ⟨0, _⟩ => rfl
  | ⟨1, _⟩ => rfl

/-! ## The second pass's payload at an index -/

/-- The feature map on a block of rows: row r of the block times column d of the weights, plus the bias, clipped
    below at the zero word. -/
private def blkQ (x0 : Vec Ideal S4000x256 .f32) (x1 : Vec Ideal S256x256 .f32) (x2 : Vec Ideal S256 .f32)
    (r : Fin 4000) (d : Fin 256) : EReal :=
  max ((∑ k : Fin 256, x0 (ix2 r k) * x1 (ix2 k d)) + x2 (ix1 d)) ReluAttn.z0

/-- The clipped affine map of the payload, at (r, d): the product into the zero accumulator, the bias row broadcast
    down the block, the maximum with the zero word (the roundings to bf16 are the identity on the extended reals). -/
private theorem feat_apply (x0 : Vec Ideal S4000x256 .f32) (x1 : Vec Ideal S256x256 .f32) (x2 : Vec Ideal S256 .f32)
    (r : Fin 4000) (d : Fin 256) :
    maximumf (addf (matmul dot_S4000x256_S256x256_S4000x256_1_0_0_1_n_n none (truncf .bf16 x0 bitsLt_bf16_f32) (truncf .bf16 x1 bitsLt_bf16_f32) (constant (F := Ideal) S4000x256 .f32 0x00000000#32))
        (broadcastTo S4000x256 (shapeCast S1x256 x2 shapeCasts_S256_S1x256) broadcasts_S1x256_S4000x256))
      (broadcast S4000x256 (Scalar.ofBits (F := Ideal) .f32 0x00000000#32)) (ix2 r d) = blkQ x0 x1 x2 r d := by
  rw [maximumf_apply, addf_apply, prod_apply, broadcast_apply, broadcastTo_1b_ab_apply, shapeCast_a_1a_apply]
  rfl

/-- The payload at (r, e): the features of row r against column e of the matrix it is handed, over the features of
    row r against the row vector it is handed plus the epsilon word. -/
private theorem pay_apply (x0 : Vec Ideal S4000x256 .f32) (x1 : Vec Ideal S256x256 .f32) (x2 : Vec Ideal S256 .f32)
    (x3 : Vec Ideal S256x256 .f32) (x4 : Vec Ideal S1x256 .f32) (r : Fin 4000) (e : Fin 256) :
    k1_pay1 x0 x1 x2 x3 x4 (ix2 r e)
      = Ideal.div (∑ d : Fin 256, blkQ x0 x1 x2 r d * x3 (ix2 d e))
          ((∑ d : Fin 256, blkQ x0 x1 x2 r d * x4 (ix2 (0 : Fin 1) d)) + ReluAttn.eps) := by
  unfold k1_pay1
  dsimp only
  rw [divf_apply, prod_apply, bcast_col, addf_apply, cast_col, lane_sum_apply, broadcast_apply]
  congr 1
  · refine Finset.sum_congr rfl fun d _ => ?_
    rw [truncf_apply, truncf_apply, feat_apply, shapeCast_self]
  · congr 1
    refine Finset.sum_congr rfl fun d _ => ?_
    rw [mulf_apply, feat_apply, broadcastTo_1b_ab_apply, shapeCast_self]

variable (V : (c : Dev nD) → (b : Ref sig .tc) → Buf (Elt Ideal) ((c : Thread nD τ).loc b))

/-! ## The blocks the second pass reads at a point -/

private theorem hz2 : (![0, 0] : Fin 2 → Nat) = fun _ => 0 :=
  funext fun a => match a with | ⟨0, _⟩ => rfl | ⟨1, _⟩ => rfl
private theorem hz1 : (![0] : Fin 1 → Nat) = fun _ => 0 :=
  funext fun a => match a with | ⟨0, _⟩ => rfl

/-- The printed index maps over the 25 points: the row blocks of x and of the result move with the point, the four
    whole-array windows stay at block 0. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

private theorem point_lt (t : Fin cfg1.N) : t.val < 25 := lt_of_lt_of_eq t.isLt (show cfg1.N = 25 from N_1)

/-- Row r of the block of x at point t is row 4000 t + r of x. -/
private theorem x_read (c : Dev nD) (t : Fin cfg1.N) (r : Fin 4000) (k : Fin 256) :
    iblk1 V c 0 t (ix2 r k) = ReluAttn.xrow (V c main_arg0) (4000 * t.val + r.val) k := by
  have ht := point_lt t
  have hr := r.isLt
  obtain ⟨e0, e1, -⟩ := idx_facts t
  rw [ReluAttn.xrow_of_lt _ _ (by omega)]
  show V c main_arg0 (((cfg1.win 0).blk t).view.emb (ix2 r k)) = V c main_arg0 (ix2 ⟨4000 * t.val + r.val, by omega⟩ k)
  refine congrArg (V c main_arg0) (funext fun a => Fin.ext ?_)
  match a with
  | ⟨0, _⟩ => show win1_0.index t (0 : Fin 2) * 4000 + 1 * r.val = 4000 * t.val + r.val; omega
  | ⟨1, _⟩ => show win1_0.index t (1 : Fin 2) * 256 + 1 * k.val = k.val; omega

/-- The weights' window is the whole matrix at every point. -/
private theorem w_read (c : Dev nD) (t : Fin cfg1.N) (k d : Fin 256) :
    iblk1 V c 1 t (ix2 k d) = V c main_arg1 (ix2 k d) := by
  obtain ⟨-, -, e0, e1, -⟩ := idx_facts t
  show V c main_arg1 (((cfg1.win 1).blk t).view.emb (ix2 k d)) = V c main_arg1 (ix2 k d)
  refine congrArg (V c main_arg1) (funext fun a => Fin.ext ?_)
  match a with
  | ⟨0, _⟩ => show win1_1.index t (0 : Fin 2) * 256 + 1 * k.val = k.val; omega
  | ⟨1, _⟩ => show win1_1.index t (1 : Fin 2) * 256 + 1 * d.val = d.val; omega

/-- The bias's window is the whole vector at every point. -/
private theorem b_read (c : Dev nD) (t : Fin cfg1.N) (d : Fin 256) :
    iblk1 V c 2 t (ix1 d) = V c main_arg2 (ix1 d) := by
  obtain ⟨-, -, -, -, e0, -⟩ := idx_facts t
  show V c main_arg2 (((cfg1.win 2).blk t).view.emb (ix1 d)) = V c main_arg2 (ix1 d)
  refine congrArg (V c main_arg2) (funext fun a => Fin.ext ?_)
  match a with
  | ⟨0, _⟩ => show win1_2.index t (0 : Fin 1) * 256 + 1 * d.val = d.val; omega

/-- The window of the matrix the first pass left is the whole matrix at every point. -/
private theorem kv_read (c : Dev nD) (t : Fin cfg1.N) (d e : Fin 256) :
    iblk1 V c 3 t (ix2 d e) = V c main_v1 (ix2 d e) := by
  obtain ⟨-, -, -, -, -, e0, e1, -⟩ := idx_facts t
  show V c main_v1 (((cfg1.win 3).blk t).view.emb (ix2 d e)) = V c main_v1 (ix2 d e)
  refine congrArg (V c main_v1) (funext fun a => Fin.ext ?_)
  match a with
  | ⟨0, _⟩ => show win1_3.index t (0 : Fin 2) * 256 + 1 * d.val = d.val; omega
  | ⟨1, _⟩ => show win1_3.index t (1 : Fin 2) * 256 + 1 * e.val = e.val; omega

/-- The window of the row vector the first pass left is the whole vector at every point. -/
private theorem ks_read (c : Dev nD) (t : Fin cfg1.N) (d : Fin 256) :
    iblk1 V c 4 t (ix2 (0 : Fin 1) d) = V c main_v2 (ix2 (0 : Fin 1) d) := by
  obtain ⟨-, -, -, -, -, -, -, e0, e1, -⟩ := idx_facts t
  show V c main_v2 (((cfg1.win 4).blk t).view.emb (ix2 (0 : Fin 1) d)) = V c main_v2 (ix2 (0 : Fin 1) d)
  refine congrArg (V c main_v2) (funext fun a => Fin.ext ?_)
  match a with
  | ⟨0, _⟩ => show win1_4.index t (0 : Fin 2) * 1 + 1 * 0 = 0; omega
  | ⟨1, _⟩ => show win1_4.index t (1 : Fin 2) * 256 + 1 * d.val = d.val; omega

/-- The feature map on the block of x at point t is the feature map of x at the block's rows. -/
private theorem q_read (c : Dev nD) (t : Fin cfg1.N) (r : Fin 4000) (d : Fin 256) :
    blkQ (iblk1 V c 0 t) (iblk1 V c 1 t) (iblk1 V c 2 t) r d
      = ReluAttn.feat (V c main_arg0) (V c main_arg1) (V c main_arg2) (4000 * t.val + r.val) d := by
  unfold blkQ ReluAttn.feat ReluAttn.lin
  rw [b_read V c t d]
  refine congrArg (fun s => max (s + V c main_arg2 (ix1 d)) ReluAttn.z0) (Finset.sum_congr rfl fun k _ => ?_)
  rw [x_read V c t r k, w_read V c t k d]

/-! ## From the blocks to the array -/

/-- The second pass's result as one function of the arrays the region finds. -/
private abbrev G (c : Dev nD) : S100000x256.Idx → EReal := fun i =>
  ReluAttn.out1 (V c main_arg0) (V c main_arg1) (V c main_arg2) (V c main_v1) (V c main_v2) (i 0).val (i 1)

/-- Entry (r, e) of the result's block at point t is entry (4000 t + r, e) of the result. -/
private theorem out_emb (t : Fin cfg1.N) (r : Fin 4000) (e : Fin 256) :
    ((cfg1.win 5).blk t).view.emb (ix2 r e)
      = ix2 (⟨4000 * t.val + r.val, by have := point_lt t; have := r.isLt; omega⟩ : Fin 100000) e := by
  obtain ⟨-, -, -, -, -, -, -, -, -, e0, e1⟩ := idx_facts t
  refine funext fun a => Fin.ext ?_
  match a with
  | ⟨0, _⟩ => show win1_5.index t (0 : Fin 2) * 4000 + 1 * r.val = 4000 * t.val + r.val; omega
  | ⟨1, _⟩ => show win1_5.index t (1 : Fin 2) * 256 + 1 * e.val = e.val; omega

/-- What point t writes back is block t of that function. -/
private theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S4000x256) hz2, View.ld_unit_zero (S := S256x256) hz2,
    View.ld_unit_zero (S := S1x256) hz2, View.ld_unit_zero (S := S256) hz1]
  funext j
  obtain ⟨r, e, rfl⟩ : ∃ (r : Fin 4000) (e : Fin 256), j = ix2 r e := ⟨j 0, j 1, eq_ix2 j⟩
  show k1_pay1 (iblk1 V c 0 t) (iblk1 V c 1 t) (iblk1 V c 2 t) (iblk1 V c 3 t) (iblk1 V c 4 t) (ix2 r e)
    = G V c (((cfg1.win 5).blk t).view.emb (ix2 r e))
  rw [pay_apply, out_emb]
  show _ = ReluAttn.out1 (V c main_arg0) (V c main_arg1) (V c main_arg2) (V c main_v1) (V c main_v2) (4000 * t.val + r.val) e
  unfold ReluAttn.out1
  refine congrArg₂ Ideal.div (Finset.sum_congr rfl fun d _ => ?_)
    (congrArg (· + ReluAttn.eps) (Finset.sum_congr rfl fun d _ => ?_))
  · rw [q_read V c t r d, kv_read V c t d e]
  · rw [q_read V c t r d, ks_read V c t d]

/-- An index of the result is in point t's block iff each coordinate is in the block's range on its axis. -/
private theorem mem_blk (t : Fin cfg1.N) (i : S100000x256.Idx) :
    i ∈ ((cfg1.win 5).blk t).view.set ↔ ∀ a : Fin 2, win1_5.index t a * S4000x256.size a ≤ (i a).val
      ∧ (i a).val < win1_5.index t a * S4000x256.size a + S4000x256.size a := by
  show i ∈ ((View.whole main_v3).slice (win1_5.rect t)).set ↔ _
  rw [View.set_slice_whole, Rect.mem_set_unit]
  exact Iff.rfl

theorem final_out (c : Dev nD) (n : Fin 100000) (e : Fin 256) :
    (dat1 (F := Ideal) V c).arrAt 5 cfg1.N (ix2 n e)
      = ReluAttn.out1 (V c main_arg0) (V c main_arg1) (V c main_arg2) (V c main_v1) (V c main_v2) n.val e := by
  have hn := n.isLt
  have he := e.isLt
  -- row n lies in the block of point n / 4000, and every point writes its block back
  have hp : n.val / 4000 < cfg1.N := by rw [show cfg1.N = 25 from N_1]; omega
  obtain ⟨-, -, -, -, -, -, -, -, -, e0, e1⟩ := idx_facts ⟨n.val / 4000, hp⟩
  refine ((dat1 (F := Ideal) V c).arrAt_apply_of_mem 5 (G V c) (fun t _ => flushed_eq V c t) cfg1.N ⟨n.val / 4000, hp⟩ (ix2 n e) hp
    (flush1_5 _) ?_).trans rfl
  rw [mem_blk]
  intro a
  match a with
  | ⟨0, _⟩ =>
    show win1_5.index ⟨n.val / 4000, hp⟩ (0 : Fin 2) * 4000 ≤ n.val ∧ n.val < win1_5.index ⟨n.val / 4000, hp⟩ (0 : Fin 2) * 4000 + 4000
    rw [e0]; show n.val / 4000 * 4000 ≤ n.val ∧ n.val < n.val / 4000 * 4000 + 4000; omega
  | ⟨1, _⟩ =>
    show win1_5.index ⟨n.val / 4000, hp⟩ (1 : Fin 2) * 256 ≤ e.val ∧ e.val < win1_5.index ⟨n.val / 4000, hp⟩ (1 : Fin 2) * 256 + 256
    omega

end Cert.KernelIdeal.Pass2

end
-- ==== Proof.Glue.lean ====
/-
  From the kernel's last boundary back to the launch memory. The result buffer is the second pass's output array;
  the second pass finds x, Wq, bq as launched, and for KV and KS the host's sums, from the zero word, over the leading
  axis (the two halves) of what the first pass wrote; the first pass finds its five arguments as launched. With the two
  passes' values and the block-sum law, the result at (n, e) is the reference's function of the launch arguments.
-/
import proofs.«400756_j25658134626478_3_alg».proof.Proof.Gen.KernelIdeal.Frame
import proofs.«400756_j25658134626478_3_alg».proof.Proof.Spec
import proofs.«400756_j25658134626478_3_alg».proof.Proof.Algebra
import proofs.«400756_j25658134626478_3_alg».proof.Proof.Pass1Fold
import proofs.«400756_j25658134626478_3_alg».proof.Proof.Pass2
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Glue

open Cert.KernelIdeal Cert.KernelIdeal.Gen

/-- The host's sum over the leading axis of a [2, 256, 256] array, from an initial scalar, at (d, e). -/
theorem reduce_kv_apply (y : FVec Ideal S2x256x256 .f32) (z : FVec Ideal S_ .f32)
    (d e : Fin 256) :
    Host.reduceAdd (F := Ideal) y z reducesTo_S2x256x256_S256x256_d0 h_S_ (ix2 d e) = z (Shape.Idx.first h_S_) + ∑ h : Fin 2, y (ix3 h d e) := by
  simp only [Host.reduceAdd, Ideal.hostReduceAdd_def]
  rw [Ideal.hostReduceAdd_single reducesTo_S2x256x256_S256x256_d0 (by decide)]
  refine congrArg (_ + ·) (Finset.sum_congr rfl fun k _ => ?_)
  exact congrArg y (funext fun a => Fin.ext (by match a with | ⟨0, _⟩ => rfl | ⟨1, _⟩ => rfl | ⟨2, _⟩ => rfl))

/-- The host's sum over the leading axis of a [2, 1, 256] array, from an initial scalar, at (0, d). -/
theorem reduce_ks_apply (y : FVec Ideal S2x1x256 .f32) (z : FVec Ideal S_ .f32)
    (d : Fin 256) :
    Host.reduceAdd (F := Ideal) y z reducesTo_S2x1x256_S1x256_d0 h_S_ (ix2 (0 : Fin 1) d)
      = z (Shape.Idx.first h_S_) + ∑ h : Fin 2, y (ix3 h (0 : Fin 1) d) := by
  simp only [Host.reduceAdd, Ideal.hostReduceAdd_def]
  rw [Ideal.hostReduceAdd_single reducesTo_S2x1x256_S1x256_d0 (by decide)]
  refine congrArg (_ + ·) (Finset.sum_congr rfl fun k _ => ?_)
  exact congrArg y (funext fun a => Fin.ext (by match a with | ⟨0, _⟩ => rfl | ⟨1, _⟩ => rfl | ⟨2, _⟩ => rfl))

variable (m : (ℓ : Loc nD τ sig) → Buf (Elt Ideal) ℓ) (ρ : Dev nD → PrngReg)

/-- What the second pass finds in KV: the host's sum of the first pass's two partial matrices. -/
theorem V2_kv (c : Dev nD) :
    (V2 m ρ c main_v1 : FVec Ideal S256x256 .f32)
      = Host.reduceAdd (F := Ideal) (V1 m ρ c main_v0_0 : FVec Ideal S2x256x256 .f32) (constant (F := Ideal) S_ .f32 0x00000000#32) reducesTo_S2x256x256_S256x256_d0 h_S_ := by
  show StableHlo.after hostOps1 (W1 m ρ c) (Proc.devRef .tc main_v1) = _
  after_results

/-- What the second pass finds in KS: the host's sum of the first pass's two partial row vectors. -/
theorem V2_ks (c : Dev nD) :
    (V2 m ρ c main_v2 : FVec Ideal S1x256 .f32)
      = Host.reduceAdd (F := Ideal) (V1 m ρ c main_v0_1 : FVec Ideal S2x1x256 .f32) (constant (F := Ideal) S_ .f32 0x00000000#32) reducesTo_S2x1x256_S1x256_d0 h_S_ := by
  show StableHlo.after hostOps1 (W1 m ρ c) (Proc.devRef .tc main_v2) = _
  after_results

/-- The first pass's two output arrays, as the host stretch finds them, are what its write-backs left. -/
theorem V1_kv (c : Dev nD) : V1 m ρ c main_v0_0 = (dat0 (V0 m ρ) c).arrAt 5 cfg0.N := W1_arr m ρ c 5
theorem V1_ks (c : Dev nD) : V1 m ρ c main_v0_1 = (dat0 (V0 m ρ) c).arrAt 6 cfg0.N := W1_arr m ρ c 6

/-- The second pass finds x, Wq and bq as launched: no region and no host operation writes an argument. -/
theorem V2_arg0 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)
theorem V2_arg1 (c : Dev nD) : V2 m ρ c main_arg1 = m ((c : Thread nD τ).loc main_arg1) :=
  ((W3_arr m ρ c 1).trans (((dat1 (V2 m ρ) c).arrAt_in 1 rfl _).trans (A_eq1 (V2 m ρ) c 1))).symm.trans (W3_main_arg1 m ρ c)
theorem V2_arg2 (c : Dev nD) : V2 m ρ c main_arg2 = m ((c : Thread nD τ).loc main_arg2) :=
  ((W3_arr m ρ c 2).trans (((dat1 (V2 m ρ) c).arrAt_in 2 rfl _).trans (A_eq1 (V2 m ρ) c 2))).symm.trans (W3_main_arg2 m ρ c)

/-- The result buffer at the last boundary, at row n and column e, is the reference's function of the launch
    arguments. -/
theorem result_eq (c : Dev nD) (n : Fin 100000) (e : Fin 256) :
    W3 m ρ c (Proc.devRef .tc main_v3) (ix2 n e)
      = ReluAttn.refOut (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) n.val e := by
  rw [show W3 m ρ c (Proc.devRef .tc main_v3) = (dat1 (V2 m ρ) c).arrAt 5 cfg1.N from W3_arr m ρ c 5]
  rw [Pass2.final_out (V2 m ρ) c n e, V2_arg0, V2_arg1, V2_arg2]
  refine ReluAttn.out1_eq_refOut _ _ _ _ _ _ _ _ _ (fun d e' => ?_) (fun d => ?_) n.val e
  · rw [V2_kv m ρ c, reduce_kv_apply, V1_kv]
    refine congrArg (_ + ·) (Finset.sum_congr rfl fun h _ => ?_)
    exact Pass1.final_kv (V0 m ρ) c h d e'
  · rw [V2_ks m ρ c, reduce_ks_apply, V1_ks]
    refine congrArg (_ + ·) (Finset.sum_congr rfl fun h _ => ?_)
    exact Pass1.final_ks (V0 m ρ) c h d

end Cert.KernelIdeal.Glue

end
-- ==== Proof.RefValue.lean ====
import proofs.«400756_j25658134626478_3_alg».proof.Proof.Gen.ReferenceIdeal.Read
import proofs.«400756_j25658134626478_3_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Read

/-- The affine stage at row n, column d: the contraction over k plus the bias broadcast along the rows. -/
private theorem lin_q (x0 : (⟨S100000x256, .f32⟩ : BufTy).Contents (Elt Ideal)) (x1 : (⟨S256x256, .f32⟩ : BufTy).Contents (Elt Ideal)) (x2 : (⟨S256, .f32⟩ : BufTy).Contents (Elt Ideal)) (n : Fin 100000) (d : Fin 256) :
    val_main_v3 (F := Ideal) x0 x1 x2 (ix2 n d) = ReluAttn.lin x0 x1 x2 n.val d := by
  rw [val_main_v3_apply, val_main_v0_apply, val_main_v2_apply, val_main_v1_apply]
  have hl : ∀ k : Fin 256, lidx_main_v0 (ix2 n d) k = ix2 n k := fun k =>
    funext fun a => Fin.ext (by match a with | ⟨0, _⟩ => rfl | ⟨1, _⟩ => rfl)
  have hr : ∀ k : Fin 256, ridx_main_v0 (ix2 n d) k = ix2 k d := fun k =>
    funext fun a => Fin.ext (by match a with | ⟨0, _⟩ => rfl | ⟨1, _⟩ => rfl)
  have hb : idx_main_v1 (idx_main_v2 (ix2 n d)) = ix1 d :=
    funext fun a => Fin.ext (by match a with | ⟨0, _⟩ => rfl)
  simp only [hl, hr, hb, ReluAttn.lin, ReluAttn.xrow_idx, Ideal.addf_def]

/-- The feature stage: the affine stage clipped below at the zero word. -/
private theorem feat_q (x0 : (⟨S100000x256, .f32⟩ : BufTy).Contents (Elt Ideal)) (x1 : (⟨S256x256, .f32⟩ : BufTy).Contents (Elt Ideal)) (x2 : (⟨S256, .f32⟩ : BufTy).Contents (Elt Ideal)) (n : Fin 100000) (d : Fin 256) :
    val_main_v4 (F := Ideal) x0 x1 x2 (ix2 n d) = ReluAttn.feat x0 x1 x2 n.val d := by
  rw [val_main_v4_apply, lin_q, val_main_call0_v0_apply, val_main_call0_cst_apply]
  simp only [ReluAttn.feat, Ideal.maximumf_def, Ideal.ofBits_def]

/-- The affine stage at row n, column d: the contraction over k plus the bias broadcast along the rows. -/
private theorem lin_k (x0 : (⟨S100000x256, .f32⟩ : BufTy).Contents (Elt Ideal)) (x3 : (⟨S256x256, .f32⟩ : BufTy).Contents (Elt Ideal)) (x4 : (⟨S256, .f32⟩ : BufTy).Contents (Elt Ideal)) (n : Fin 100000) (d : Fin 256) :
    val_main_v8 (F := Ideal) x0 x3 x4 (ix2 n d) = ReluAttn.lin x0 x3 x4 n.val d := by
  rw [val_main_v8_apply, val_main_v5_apply, val_main_v7_apply, val_main_v6_apply]
  have hl : ∀ k : Fin 256, lidx_main_v5 (ix2 n d) k = ix2 n k := fun k =>
    funext fun a => Fin.ext (by match a with | ⟨0, _⟩ => rfl | ⟨1, _⟩ => rfl)
  have hr : ∀ k : Fin 256, ridx_main_v5 (ix2 n d) k = ix2 k d := fun k =>
    funext fun a => Fin.ext (by match a with | ⟨0, _⟩ => rfl | ⟨1, _⟩ => rfl)
  have hb : idx_main_v6 (idx_main_v7 (ix2 n d)) = ix1 d :=
    funext fun a => Fin.ext (by match a with | ⟨0, _⟩ => rfl)
  simp only [hl, hr, hb, ReluAttn.lin, ReluAttn.xrow_idx, Ideal.addf_def]

/-- The feature stage: the affine stage clipped below at the zero word. -/
private theorem feat_k (x0 : (⟨S100000x256, .f32⟩ : BufTy).Contents (Elt Ideal)) (x3 : (⟨S256x256, .f32⟩ : BufTy).Contents (Elt Ideal)) (x4 : (⟨S256, .f32⟩ : BufTy).Contents (Elt Ideal)) (n : Fin 100000) (d : Fin 256) :
    val_main_v9 (F := Ideal) x0 x3 x4 (ix2 n d) = ReluAttn.feat x0 x3 x4 n.val d := by
  rw [val_main_v9_apply, lin_k, val_main_call1_v0_apply, val_main_call1_cst_apply]
  simp only [ReluAttn.feat, Ideal.maximumf_def, Ideal.ofBits_def]

/-- The affine stage at row n, column d: the contraction over k plus the bias broadcast along the rows. -/
private theorem lin_v (x0 : (⟨S100000x256, .f32⟩ : BufTy).Contents (Elt Ideal)) (x5 : (⟨S256x256, .f32⟩ : BufTy).Contents (Elt Ideal)) (x6 : (⟨S256, .f32⟩ : BufTy).Contents (Elt Ideal)) (n : Fin 100000) (d : Fin 256) :
    val_main_v13 (F := Ideal) x0 x5 x6 (ix2 n d) = ReluAttn.lin x0 x5 x6 n.val d := by
  rw [val_main_v13_apply, val_main_v10_apply, val_main_v12_apply, val_main_v11_apply]
  have hl : ∀ k : Fin 256, lidx_main_v10 (ix2 n d) k = ix2 n k := fun k =>
    funext fun a => Fin.ext (by match a with | ⟨0, _⟩ => rfl | ⟨1, _⟩ => rfl)
  have hr : ∀ k : Fin 256, ridx_main_v10 (ix2 n d) k = ix2 k d := fun k =>
    funext fun a => Fin.ext (by match a with | ⟨0, _⟩ => rfl | ⟨1, _⟩ => rfl)
  have hb : idx_main_v11 (idx_main_v12 (ix2 n d)) = ix1 d :=
    funext fun a => Fin.ext (by match a with | ⟨0, _⟩ => rfl)
  simp only [hl, hr, hb, ReluAttn.lin, ReluAttn.xrow_idx, Ideal.addf_def]

/-- The matrix KV at (d, e): the contraction over all rows m of K[m,d] * V[m,e]. -/
private theorem kv_val (x0 : (⟨S100000x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (d e : Fin 256) :
    val_main_v14 (F := Ideal) x0 x3 x4 x5 x6 (ix2 d e) = ∑ m : Fin 100000, ReluAttn.kvTerm x0 x3 x4 x5 x6 d e m.val := by
  rw [val_main_v14_apply]
  refine Finset.sum_congr rfl fun m _ => ?_
  have hl : lidx_main_v14 (ix2 d e) m = ix2 m d :=
    funext fun a => Fin.ext (by match a with | ⟨0, _⟩ => rfl | ⟨1, _⟩ => rfl)
  have hr : ridx_main_v14 (ix2 d e) m = ix2 m e :=
    funext fun a => Fin.ext (by match a with | ⟨0, _⟩ => rfl | ⟨1, _⟩ => rfl)
  rw [hl, hr, feat_k, lin_v]
  rfl

/-- The column sums KS at d: the reduction's zero word plus the sum over all rows m of K[m,d]. -/
private theorem ks_val (x0 : (⟨S100000x256, .f32⟩ : BufTy).Contents (Elt Ideal)) (x3 : (⟨S256x256, .f32⟩ : BufTy).Contents (Elt Ideal)) (x4 : (⟨S256, .f32⟩ : BufTy).Contents (Elt Ideal)) (d : Fin 256) :
    val_main_v16 (F := Ideal) x0 x3 x4 (ix1 d) = ReluAttn.z0 + ∑ m : Fin 100000, ReluAttn.feat x0 x3 x4 m.val d := by
  rw [val_main_v16_apply, val_main_cst_apply]
  refine congrArg (_ + ·) (Finset.sum_congr rfl fun m _ => ?_)
  have hi : idx_main_v16 (ix1 d) m = ix2 m d :=
    funext fun a => Fin.ext (by match a with | ⟨0, _⟩ => rfl | ⟨1, _⟩ => rfl)
  rw [hi, feat_k]

theorem ref_out (x0 : (⟨S100000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (n : Fin 100000) (e : Fin 256) :
    val_main_v22 (F := Ideal) x0 x1 x2 x3 x4 x5 x6 (ix2 n e) = ReluAttn.refOut x0 x1 x2 x3 x4 x5 x6 n.val e := by
  rw [val_main_v22_apply, val_main_v15_apply, val_main_v21_apply, val_main_v20_apply, val_main_v18_apply,
    val_main_v19_apply, val_main_cst_0_apply]
  -- the numerator: sum over d of Q[n,d] * KV[d,e]
  have hnum : ∀ k : Fin 256,
      val_main_v4 (F := Ideal) x0 x1 x2 (lidx_main_v15 (ix2 n e) k) * val_main_v14 (F := Ideal) x0 x3 x4 x5 x6 (ridx_main_v15 (ix2 n e) k)
        = ReluAttn.feat x0 x1 x2 n.val k * ∑ m : Fin 100000, ReluAttn.kvTerm x0 x3 x4 x5 x6 k e m.val := fun k => by
    have hl : lidx_main_v15 (ix2 n e) k = ix2 n k :=
      funext fun a => Fin.ext (by match a with | ⟨0, _⟩ => rfl | ⟨1, _⟩ => rfl)
    have hr : ridx_main_v15 (ix2 n e) k = ix2 k e :=
      funext fun a => Fin.ext (by match a with | ⟨0, _⟩ => rfl | ⟨1, _⟩ => rfl)
    rw [hl, hr, feat_q, kv_val]
  -- the denominator: sum over d of Q[n,d] * KS[d]
  have hden : ∀ k : Fin 256,
      val_main_v4 (F := Ideal) x0 x1 x2 (lidx_main_v18 (idx_main_v21 (ix2 n e)) k) * val_main_v17 (F := Ideal) x0 x3 x4 (ridx_main_v18 (idx_main_v21 (ix2 n e)) k)
        = ReluAttn.feat x0 x1 x2 n.val k * (ReluAttn.z0 + ∑ m : Fin 100000, ReluAttn.feat x0 x3 x4 m.val k) := fun k => by
    have hl : lidx_main_v18 (idx_main_v21 (ix2 n e)) k = ix2 n k :=
      funext fun a => Fin.ext (by match a with | ⟨0, _⟩ => rfl | ⟨1, _⟩ => rfl)
    have hr : idx_main_v17 (ridx_main_v18 (idx_main_v21 (ix2 n e)) k) = ix1 k :=
      funext fun a => Fin.ext (by match a with | ⟨0, _⟩ => rfl)
    rw [val_main_v17_apply, hl, hr, feat_q, ks_val]
  simp only [hnum, hden, ReluAttn.refOut, Ideal.hostDivf_def, Ideal.addf_def, Ideal.ofBits_def]

end Cert.ReferenceIdeal.RefValue

end
-- ==== Proof.lean ====
/-
  ReLU-kernelised linear attention, 100000 rows of width 256: the Pallas kernel against the plain jnp reference.

  Both programs compute, at row n and column e,
      (sum_d Q[n,d] KV[d,e]) / ((sum_d Q[n,d] KS[d]) + eps),
  Q = max(x Wq + bq, 0), K = max(x Wk + bk, 0), V = x Wv + bv, KV = K^T V, KS = the column sums of K.
  The kernel takes two passes. The first walks x in two halves of 25 blocks of 2000 rows and accumulates, per half, the
  partial K^T V and the partial column sums of K, starting each half from zero; the host adds the two halves. The second
  walks x in 25 blocks of 4000 rows and forms the quotient row by row. The reference forms KV and KS by whole-array
  contractions. Read over the extended reals (a change of float format is the identity, a matrix product into a zero
  accumulator and a contraction are the same sum) the only difference is the ORDER AND GROUPING of the sum over the
  rows, and a sum over the rows taken block by block from zero is the sum over the rows: addition of extended reals is
  commutative and associative with unit zero. No finiteness of the inputs is used. The zero word and the epsilon word
  are the same words on both sides and are never evaluated, except that the zero word is the unit of addition.

  Spec      the functions above, rows named by natural numbers so that blocks and halves are intervals
  Algebra   the block-sum law, and the second pass handed the host's sums is the reference's function
  Pass1Pieces, Pass1Fold   what the first pass leaves: per point, and folded over a half
  Pass2     what the second pass writes, row by row
  KRun      the kernel's run with its result buffer kept
  Glue      the contents at the boundaries between the passes, back to the launch memory
  RefValue  the reference's result stage read at an index
-/
import proofs.«400756_j25658134626478_3_alg».proof.Defs
import proofs.«400756_j25658134626478_3_alg».proof.Proof.Gen.Kernel
import proofs.«400756_j25658134626478_3_alg».proof.Proof.Gen.Kernel.Skeleton
import proofs.«400756_j25658134626478_3_alg».proof.Proof.Gen.Kernel.Launch
import proofs.«400756_j25658134626478_3_alg».proof.Proof.Gen.Kernel.Points
import proofs.«400756_j25658134626478_3_alg».proof.Proof.Gen.Kernel.Frame
import proofs.«400756_j25658134626478_3_alg».proof.Proof.Gen.KernelIdeal
import proofs.«400756_j25658134626478_3_alg».proof.Proof.Gen.KernelIdeal.Skeleton
import proofs.«400756_j25658134626478_3_alg».proof.Proof.Gen.KernelIdeal.Launch
import proofs.«400756_j25658134626478_3_alg».proof.Proof.Gen.KernelIdeal.Points
import proofs.«400756_j25658134626478_3_alg».proof.Proof.Gen.KernelIdeal.Frame
import proofs.«400756_j25658134626478_3_alg».proof.Proof.Gen.ReferenceIdeal
import proofs.«400756_j25658134626478_3_alg».proof.Proof.Gen.ReferenceIdeal.Run
import proofs.«400756_j25658134626478_3_alg».proof.Proof.Gen.ReferenceIdeal.Read
import proofs.«400756_j25658134626478_3_alg».proof.Proof.Gen.Pre_finite_inputs
import proofs.«400756_j25658134626478_3_alg».proof.Proof.KRun
import proofs.«400756_j25658134626478_3_alg».proof.Proof.Glue
import proofs.«400756_j25658134626478_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the seven arguments both programs end, and the two results are equal entry by entry:
    the kernel's result buffer holds, at (n, e), the reference's function of the launch arguments, and so does the
    reference's last stage. -/
theorem algebraic : Cert.algebraic_KernelIdeal_ReferenceIdeal := by
  intro m ρ m' ρ' _ hagree
  refine ⟨fun c => Cert.KernelIdeal.Gen.W3 m ρ c (Proc.devRef .tc Cert.KernelIdeal.main_v3), Cert.KernelIdeal.Run.run_result (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v22_eq, (hagree c).1, (hagree c).2.1, (hagree c).2.2.1, (hagree c).2.2.2.1,
    (hagree c).2.2.2.2.1, (hagree c).2.2.2.2.2.1, (hagree c).2.2.2.2.2.2]
  funext i
  obtain ⟨n, e, rfl⟩ : ∃ (n : Fin 100000) (e : Fin 256), i = ix2 n e := ⟨i 0, i 1, eq_ix2 i⟩
  rw [Cert.ReferenceIdeal.RefValue.ref_out]
  exact (Cert.KernelIdeal.Glue.result_eq m ρ c n e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
